-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S256x10 .f32) (main_arg9 : FVec F S10 .f32) (main_v33 : IVec S_ 1) : IVec S_ 1 :=
  let main_v34 : FVec F S256x10 .f32 := Host.absf main_arg8
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S128 .f32) (main_arg6 : FVec F S128x256 .f32) (main_arg7 : FVec F S256 .f32) (main_arg8 : FVec F S256x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x256 .f32) (main_arg7 : FVec F S256 .f32) (main_arg8 : FVec F S256x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x256 : Shape := ⟨2, ![1, 256]⟩
abbrev S50000x256 : Shape := ⟨2, ![50000, 256]⟩
abbrev S5000x256 : Shape := ⟨2, ![5000, 256]⟩
abbrev S256x128 : Shape := ⟨2, ![256, 128]⟩
abbrev S50000x10 : Shape := ⟨2, ![50000, 10]⟩

abbrev nBuf : Space → Nat
  | .hbm => 97
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S1x256, .f32⟩
  | .hbm, ⟨87, _⟩ => ⟨S50000x256, .f32⟩
  | .hbm, ⟨88, _⟩ => ⟨S_, .i32⟩
  | .hbm, ⟨89, _⟩ => ⟨S_, .f32⟩
  | .hbm, ⟨90, _⟩ => ⟨S256x128, .f32⟩
  | .hbm, ⟨91, _⟩ => ⟨S_, .i32⟩
  | .hbm, ⟨92, _⟩ => ⟨S_, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_call1_v0 : Ref sig .tc := ⟨.hbm, 89, rfl⟩
abbrev main_v62 : Ref sig .tc := ⟨.hbm, 90, rfl⟩
abbrev main_c_13 : Ref sig .tc := ⟨.hbm, 91, rfl⟩
abbrev main_call2_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  pads_S256x10_S256x128_000_01180 : S256x10.Pads (![0, 0] : Fin 2 → Nat) ![0, 118] ![0, 0] S256x128
  h_S_ : 0 < S_.numel
  pads_S10_S128_01180 : S10.Pads (![0] : Fin 1 → Nat) ![118] ![0] S128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S50000x128_S50000x10_0_0 : S50000x128.Slices ![0, 0] S50000x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S50000x256.size a
  hwx2_4 : ∀ i : grid2.Coords, EltTy.bits .f32 = 32 ∨ (Rect.block (s := S50000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩
abbrev S1x256 : Shape := ⟨2, ![1, 256]⟩
abbrev S50000x10 : Shape := ⟨2, ![50000, 10]⟩
abbrev S1x10 : Shape := ⟨2, ![1, 10]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x10, .f32⟩
  | .hbm, ⟨9, _⟩ => ⟨S10, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | .hbm, ⟨100, _⟩ => ⟨S50000x10, .f32⟩
  | .hbm, ⟨101, _⟩ => ⟨S1x10, .f32⟩
  | .hbm, ⟨102, _⟩ => ⟨S50000x10, .f32⟩
  | .hbm, ⟨103, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  dot_S50000x256_S256x10_S50000x10_1_0_0_1_n_n_wf : DotDims.WF S50000x256 S256x10 S50000x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x10_S50000x10_1_0_0_1_n_n : DotDims S50000x256 S256x10 S50000x10 where
  lhsContracting := [1]
  rhsContracting := [0]
  lhsNonContracting := [0]
  rhsNonContracting := [1]
  lhsBatch := []
  rhsBatch := []
  wf := dot_S50000x256_S256x10_S50000x10_1_0_0_1_n_n_wf

class Facts : Prop extends Facts₀ where

variable [Facts]
-- ==== Proof.Graph.lean ====
/-
  The graph side of the network, as whole-array functions of the edge list, and the whole network over them.

  The edge list is a [2 × 800000] array of node numbers: row 0 the sources, row 1 the targets. Both programs append the
  50000 self loops (i, i), count each node's incoming edges (a scatter of ones: the degree), take the degree's inverse
  square root where it is positive and zero elsewhere, and weigh edge k by the product of that quantity at its two
  ends. A convolution of a [50000 × 128] array Y of node rows gathers row src(k) of Y for every edge k, scales it by
  the edge's weight and adds it into row dst(k) of an array of zeros. A node number is first wrapped as jnp's
  indexing wraps a negative index (50000 is added to it when it is negative). The network is two such convolutions
  between dense layers, and a two-layer head.
-/
import proofs.«106158_j59725815218350_1_alg».proof.Proof.Gen.ReferenceIdeal

noncomputable section

namespace Cert.Gcn.Graph

open Cert.ReferenceIdeal Cert.ReferenceIdeal.Gen Idealize.ShloMosaic Idealize.ShloMosaic.TcCoe

variable {F : FTy → Type} [FloatOps F]

/-- The sources (row 0 of the edge list) followed by the self loops' 0 … 49999. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The targets (row 1 of the edge list) followed by the self loops' 0 … 49999. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A list of node numbers as a column of gather indices: a negative number has 50000 added to it first. -/
def wrapCol (i : (⟨S850000, .i32⟩ : BufTy).Contents (Elt F)) : (⟨S850000x1, .i32⟩ : BufTy).Contents (Elt F) :=
  broadcastInDim S850000x1 ![0] bcast_S850000_S850000x1_0 (select (cmpi .slt i (broadcastInDim S850000 ![] bcast_S_S850000 (constantI S_ 32 0#32))) (addi i (broadcastInDim S850000 ![] bcast_S_S850000 (constantI S_ 32 50000#32))) i)

/-- A list of node numbers as a column of scatter indices, as it is. -/
def col (i : (⟨S850000, .i32⟩ : BufTy).Contents (Elt F)) : (⟨S850000x1, .i32⟩ : BufTy).Contents (Elt F) :=
  broadcastInDim S850000x1 ![0] bcast_S850000_S850000x1_0 i

/-- Each node's number of incoming edges, self loop included: ones added at the targets into zeros. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (col (F := F) (dst (F := F) e)) (broadcastInDim S850000 ![] bcast_S_S850000 (constant S_ .f32 0x3F800000#32))

/-- The degree's inverse square root where the degree is positive, zero elsewhere. -/
def dis (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32))) (Host.rsqrt (deg (F := F) e)) (broadcastInDim S50000 ![] bcast_S_S50000 (id (constant S_ .f32 0x00000000#32)))

/-- Edge k's weight: the product of `dis` at its source and at its target. -/
def norm (e : (⟨S2x800000, .i32⟩ : BufTy).Contents (Elt F)) : (⟨S850000, .f32⟩ : BufTy).Contents (Elt F) :=
  mulf (Host.gather gather_S50000_S850000x1_S850000_n_0_n_n_0_1_1 (dis (F := F) e) (wrapCol (F := F) (src (F := F) e))) (Host.gather gather_S50000_S850000x1_S850000_n_0_n_n_0_1_1 (dis (F := F) e) (wrapCol (F := F) (dst (F := F) e)))

/-- The convolution of node rows Y over the graph: for every edge, row src of Y times the edge's weight, added into
    row dst of zeros. -/
def conv (Y : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (col (F := F) (dst (F := F) e)) (mulf (Host.gather gather_S50000x128_S850000x1_S850000x128_1_0_n_n_0_1_1128 Y (wrapCol (F := F) (src (F := F) e))) (broadcastInDim S850000x128 ![0, 1] bcast_S850000x1_S850000x128_0_1 (broadcastInDim S850000x1 ![0] bcast_S850000_S850000x1_0 (norm (F := F) e))))

/-- A 128-vector as a row added to each of the 50000 rows. -/
def bias128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)
/-- A 256-vector as a row added to each of the 50000 rows. -/
def bias256 (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)
/-- A 10-vector as a row added to each of the 50000 rows. -/
def bias10 (b : (⟨S10, .f32⟩ : BufTy).Contents (Elt F)) : (⟨S50000x10, .f32⟩ : BufTy).Contents (Elt F) :=
  broadcastInDim S50000x10 ![0, 1] bcast_S1x10_S50000x10_0_1 (broadcastInDim S1x10 ![1] bcast_S10_S1x10_1 b)
/-- The [50000 × 128] array of zeros the first rectifier compares with. -/
def zero128 : (⟨S50000x128, .f32⟩ : BufTy).Contents (Elt F) :=
  broadcastInDim S50000x128 ![] bcast_S_S50000x128 (constant S_ .f32 0x00000000#32)
/-- The [50000 × 256] array of zeros the head's rectifier compares with. -/
def zero256 : (⟨S50000x256, .f32⟩ : BufTy).Contents (Elt F) :=
  broadcastInDim S50000x256 ![] bcast_S_S50000x256 (constant S_ .f32 0x00000000#32)

/-- The first layer's output: max(conv(x · W0) + b0, 0) · W1 is formed from it by the next layer. This is
    conv(x · W0) + b0 rectified. -/
def hidden (x0 : (⟨S50000x128, .f32⟩ : BufTy).Contents (Elt F)) (e : (⟨S2x800000, .i32⟩ : BufTy).Contents (Elt F))
    (x2 : (⟨S128x128, .f32⟩ : BufTy).Contents (Elt F)) (x3 : (⟨S128, .f32⟩ : BufTy).Contents (Elt F)) : (⟨S50000x128, .f32⟩ : BufTy).Contents (Elt F) :=
  maximumf (addf (conv (F := F) (Host.dotGeneral dot_S50000x128_S128x128_S50000x128_1_0_0_1_n_n none x0 x2) e) (bias128 (F := F) x3)) (zero128 (F := F))

/-- The whole network on the host: two convolutions between dense layers, then the two-layer head. -/
def net (x0 : (⟨S50000x128, .f32⟩ : BufTy).Contents (Elt F)) (e : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x256, .f32⟩ : BufTy).Contents (Elt F)) (x7 : (⟨S256, .f32⟩ : BufTy).Contents (Elt F))
    (x8 : (⟨S256x10, .f32⟩ : BufTy).Contents (Elt F)) (x9 : (⟨S10, .f32⟩ : BufTy).Contents (Elt F)) : (⟨S50000x10, .f32⟩ : BufTy).Contents (Elt F) :=
  addf (Host.dotGeneral dot_S50000x256_S256x10_S50000x10_1_0_0_1_n_n none
      (maximumf (addf (Host.dotGeneral dot_S50000x128_S128x256_S50000x256_1_0_0_1_n_n none
          (addf (conv (F := F) (Host.dotGeneral dot_S50000x128_S128x128_S50000x128_1_0_0_1_n_n none (hidden (F := F) x0 e x2 x3) x4) e) (bias128 (F := F) x5)) x6)
        (bias256 (F := F) x7)) (zero256 (F := F))) x8)
    (bias10 (F := F) x9)

end Cert.Gcn.Graph

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.RefRead.lean ====
/-
  The host program read back as the network of its arguments.

  The line of 94 operations is cut where the mathematics has its joints: the graph's index arrays and edge weights
  (the first 40 operations), the first convolution (the next 17), its bias and rectifier (6), the second convolution
  (17), and the head (14). Each stretch is read over ARBITRARY contents V of the buffers before it: what it leaves at
  the buffer that matters is a function of what V holds at the few buffers it reads, and it leaves the argument
  buffers and the graph's three arrays (sources, targets, edge weights) as they were. The whole line is then the
  stretches chained from the launch contents.
-/
import proofs.«106158_j59725815218350_1_alg».proof.Proof.RefRun
import proofs.«106158_j59725815218350_1_alg».proof.Proof.Graph
import proofs.«106158_j59725815218350_1_alg».proof.Proof.LibStagedRun

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.Gcn Cert.Lib.StagedRun

variable {F : FTy → Type} [FloatOps F]

/-! ## The five stretches -/

/-- The graph's arrays: sources and targets with the self loops appended, the degree, its inverse square root where
    positive, and each edge's weight. -/
abbrev ops1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first convolution: the features times the first weight matrix, gathered at the sources, weighted, added at
    the targets. -/
abbrev ops2 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The first convolution's bias and rectifier. -/
abbrev ops3 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second convolution, of the hidden rows times the second weight matrix. -/
abbrev ops4 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The second convolution's bias and the two-layer head. -/
abbrev ops5 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    binary main_v64 main_arg6 main_v65 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v66 (broadcastInDim S1x256 ![1] bcast_S256_S1x256_1 : (⟨S256, .f32⟩ : BufTy).Contents (Elt F) → (⟨S1x256, .f32⟩ : BufTy).Contents (Elt F)),
    unary main_v66 main_v67 (broadcastInDim S50000x256 ![0, 1] bcast_S1x256_S50000x256_0_1 : (⟨S1x256, .f32⟩ : BufTy).Contents (Elt F) → (⟨S50000x256, .f32⟩ : BufTy).Contents (Elt F)),
    binary main_v65 main_v67 main_v68 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v68) (TRef.of (T := ⟨S50000x256, .f32⟩) main_call2_v0) (TRef.of (T := ⟨S50000x256, .f32⟩) main_v69) maximumf,
    binary main_v69 main_arg8 main_v70 ((fun l r => Host.dotGeneral dot_S50000x256_S256x10_S50000x10_1_0_0_1_n_n none l r) : (⟨S50000x256, .f32⟩ : BufTy).Contents (Elt F) → (⟨S256x10, .f32⟩ : BufTy).Contents (Elt F) → (⟨S50000x10, .f32⟩ : BufTy).Contents (Elt F)),
    unary main_arg9 main_v71 (broadcastInDim S1x10 ![1] bcast_S10_S1x10_1 : (⟨S10, .f32⟩ : BufTy).Contents (Elt F) → (⟨S1x10, .f32⟩ : BufTy).Contents (Elt F)),
    unary main_v71 main_v72 (broadcastInDim S50000x10 ![0, 1] bcast_S1x10_S50000x10_0_1 : (⟨S1x10, .f32⟩ : BufTy).Contents (Elt F) → (⟨S50000x10, .f32⟩ : BufTy).Contents (Elt F)),
    binary main_v70 main_v72 main_v73 (addf : (⟨S50000x10, .f32⟩ : BufTy).Contents (Elt F) → (⟨S50000x10, .f32⟩ : BufTy).Contents (Elt F) → (⟨S50000x10, .f32⟩ : BufTy).Contents (Elt F)) ]

set_option maxRecDepth 8192 in
/-- The line is its five stretches, in order. -/
theorem ops_eq : (RunP.ops (F := F)) = ops1 ++ (ops2 ++ (ops3 ++ (ops4 ++ ops5))) := rfl

/-- Folding two stretches one after the other is folding the second from what the first leaves. -/
theorem after_chunks : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_chunks l₁ l₂]

/-! ## What each stretch leaves untouched -/

/-- The first stretch writes no argument buffer. -/
theorem keep1 (V : Valuation τ sig (Elt F)) {r : Ref sig .tc}
    (hr : r ∈ [main_arg0, main_arg1, main_arg2, main_arg3, main_arg4, main_arg5, main_arg6, main_arg7, main_arg8, main_arg9]) :
    after ops1 V (Proc.devRef .tc r) = V (Proc.devRef .tc r) := by
  simp only [List.mem_cons, List.not_mem_nil, or_false] at hr
  rcases hr with rfl | rfl | rfl | rfl | rfl | rfl | rfl | rfl | rfl | rfl <;> after_results_simp

/-- The second stretch writes no argument buffer and none of the graph's three arrays. -/
theorem keep2 (V : Valuation τ sig (Elt F)) {r : Ref sig .tc}
    (hr : r ∈ [main_arg0, main_arg1, main_arg2, main_arg3, main_arg4, main_arg5, main_arg6, main_arg7, main_arg8, main_arg9, main_v3, main_v6, main_v29]) :
    after ops2 V (Proc.devRef .tc r) = V (Proc.devRef .tc r) := by
  simp only [List.mem_cons, List.not_mem_nil, or_false] at hr
  rcases hr with rfl | rfl | rfl | rfl | rfl | rfl | rfl | rfl | rfl | rfl | rfl | rfl | rfl <;> after_results_simp

/-- Nor does the third. -/
theorem keep3 (V : Valuation τ sig (Elt F)) {r : Ref sig .tc}
    (hr : r ∈ [main_arg0, main_arg1, main_arg2, main_arg3, main_arg4, main_arg5, main_arg6, main_arg7, main_arg8, main_arg9, main_v3, main_v6, main_v29]) :
    after ops3 V (Proc.devRef .tc r) = V (Proc.devRef .tc r) := by
  simp only [List.mem_cons, List.not_mem_nil, or_false] at hr
  rcases hr with rfl | rfl | rfl | rfl | rfl | rfl | rfl | rfl | rfl | rfl | rfl | rfl | rfl <;> after_results_simp

/-- Nor does the fourth. -/
theorem keep4 (V : Valuation τ sig (Elt F)) {r : Ref sig .tc}
    (hr : r ∈ [main_arg0, main_arg1, main_arg2, main_arg3, main_arg4, main_arg5, main_arg6, main_arg7, main_arg8, main_arg9, main_v3, main_v6, main_v29]) :
    after ops4 V (Proc.devRef .tc r) = V (Proc.devRef .tc r) := by
  simp only [List.mem_cons, List.not_mem_nil, or_false] at hr
  rcases hr with rfl | rfl | rfl | rfl | rfl | rfl | rfl | rfl | rfl | rfl | rfl | rfl | rfl <;> after_results_simp

/-! ## What each stretch computes -/

/-- After the first stretch the sources' buffer holds the sources of the edge list, self loops appended. -/
theorem src1 (V : Valuation τ sig (Elt F)) (e : (⟨S2x800000, .i32⟩ : BufTy).Contents (Elt F))
    (h1 : V (Proc.devRef .tc main_arg1) = e) :
    after ops1 V (Proc.devRef .tc main_v3) = Graph.src (F := F) e := by
  after_results_simp
  results_rw
  rw [h1]
  rfl

/-- After the first stretch the targets' buffer holds the targets of the edge list, self loops appended. -/
theorem dst1 (V : Valuation τ sig (Elt F)) (e : (⟨S2x800000, .i32⟩ : BufTy).Contents (Elt F))
    (h1 : V (Proc.devRef .tc main_arg1) = e) :
    after ops1 V (Proc.devRef .tc main_v6) = Graph.dst (F := F) e := by
  after_results_simp
  results_rw
  rw [h1]
  rfl

set_option maxRecDepth 16384 in
set_option maxHeartbeats 2000000 in
/-- After the first stretch the weights' buffer holds each edge's weight: the operations compose exactly as the
    definitions of the degree, its inverse square root and the weight do (the scalar the inlined selection passes
    through is the identity applied to the zero constant). -/
theorem norm1 (V : Valuation τ sig (Elt F)) (e : (⟨S2x800000, .i32⟩ : BufTy).Contents (Elt F))
    (h1 : V (Proc.devRef .tc main_arg1) = e) :
    after ops1 V (Proc.devRef .tc main_v29) = Graph.norm (F := F) e := by
  after_results_simp
  results_rw
  simp only [TRef.ofBuf, TRef.toBuf, cast_eq]
  rw [h1]
  rfl

set_option maxRecDepth 16384 in
set_option maxHeartbeats 1000000 in
/-- The second stretch leaves the convolution of x0 · W0 over the graph. -/
theorem conv2 (V : Valuation τ sig (Elt F)) (x0 : (⟨S50000x128, .f32⟩ : BufTy).Contents (Elt F)) (e : (⟨S2x800000, .i32⟩ : BufTy).Contents (Elt F)) (x2 : (⟨S128x128, .f32⟩ : BufTy).Contents (Elt F))
    (h3 : V (Proc.devRef .tc main_v3) = Graph.src (F := F) e) (h6 : V (Proc.devRef .tc main_v6) = Graph.dst (F := F) e)
    (h29 : V (Proc.devRef .tc main_v29) = Graph.norm (F := F) e)
    (h0 : V (Proc.devRef .tc main_arg0) = x0) (h2 : V (Proc.devRef .tc main_arg2) = x2) :
    after ops2 V (Proc.devRef .tc main_v43)
      = Graph.conv (F := F) (Host.dotGeneral dot_S50000x128_S128x128_S50000x128_1_0_0_1_n_n none x0 x2) e := by
  after_results_simp
  rw [h3, h6, h29, h0, h2]
  rfl

/-- The third stretch adds the bias row and rectifies: the first layer's output. -/
theorem hidden3 (V : Valuation τ sig (Elt F)) (x0 : (⟨S50000x128, .f32⟩ : BufTy).Contents (Elt F)) (e : (⟨S2x800000, .i32⟩ : BufTy).Contents (Elt F)) (x2 : (⟨S128x128, .f32⟩ : BufTy).Contents (Elt F)) (x3 : (⟨S128, .f32⟩ : BufTy).Contents (Elt F))
    (h43 : V (Proc.devRef .tc main_v43)
      = Graph.conv (F := F) (Host.dotGeneral dot_S50000x128_S128x128_S50000x128_1_0_0_1_n_n none x0 x2) e)
    (h3 : V (Proc.devRef .tc main_arg3) = x3) :
    after ops3 V (Proc.devRef .tc main_v47) = Graph.hidden (F := F) x0 e x2 x3 := by
  after_results_simp
  simp only [TRef.ofBuf, TRef.toBuf, cast_eq]
  rw [h43, h3]
  rfl

set_option maxRecDepth 16384 in
set_option maxHeartbeats 1000000 in
/-- The fourth stretch leaves the convolution of H · W1 over the graph, H what the rectifier's buffer held. -/
theorem conv4 (V : Valuation τ sig (Elt F)) (H : (⟨S50000x128, .f32⟩ : BufTy).Contents (Elt F)) (e : (⟨S2x800000, .i32⟩ : BufTy).Contents (Elt F)) (x4 : (⟨S128x128, .f32⟩ : BufTy).Contents (Elt F))
    (h3 : V (Proc.devRef .tc main_v3) = Graph.src (F := F) e) (h6 : V (Proc.devRef .tc main_v6) = Graph.dst (F := F) e)
    (h29 : V (Proc.devRef .tc main_v29) = Graph.norm (F := F) e)
    (h47 : V (Proc.devRef .tc main_v47) = H) (h4 : V (Proc.devRef .tc main_arg4) = x4) :
    after ops4 V (Proc.devRef .tc main_v61)
      = Graph.conv (F := F) (Host.dotGeneral dot_S50000x128_S128x128_S50000x128_1_0_0_1_n_n none H x4) e := by
  after_results_simp
  rw [h3, h6, h29, h47, h4]
  rfl

set_option maxRecDepth 16384 in
set_option maxHeartbeats 1000000 in
/-- The last stretch adds the second bias and applies the head: the network. -/
theorem net5 (V : Valuation τ sig (Elt F)) (x0 : (⟨S50000x128, .f32⟩ : BufTy).Contents (Elt F)) (e : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (x5 : (⟨S128, .f32⟩ : BufTy).Contents (Elt F)) (x6 : (⟨S128x256, .f32⟩ : BufTy).Contents (Elt F)) (x7 : (⟨S256, .f32⟩ : BufTy).Contents (Elt F)) (x8 : (⟨S256x10, .f32⟩ : BufTy).Contents (Elt F)) (x9 : (⟨S10, .f32⟩ : BufTy).Contents (Elt F))
    (h61 : V (Proc.devRef .tc main_v61)
      = Graph.conv (F := F) (Host.dotGeneral dot_S50000x128_S128x128_S50000x128_1_0_0_1_n_n none (Graph.hidden (F := F) x0 e x2 x3) x4) e)
    (h5 : V (Proc.devRef .tc main_arg5) = x5) (h6 : V (Proc.devRef .tc main_arg6) = x6)
    (h7 : V (Proc.devRef .tc main_arg7) = x7) (h8 : V (Proc.devRef .tc main_arg8) = x8)
    (h9 : V (Proc.devRef .tc main_arg9) = x9) :
    after ops5 V (Proc.devRef .tc main_v73) = Graph.net (F := F) x0 e x2 x3 x4 x5 x6 x7 x8 x9 := by
  after_results_simp
  simp only [TRef.ofBuf, TRef.toBuf, cast_eq]
  rw [h61, h5, h6, h7, h8, h9]
  rfl

/-! ## The whole line -/

/-- What the host program's operations leave in its result buffer is the network of the launch contents of its ten
    argument buffers. -/
theorem result (m : (ℓ : Loc nD τ sig) → Buf (Elt F) ℓ) (c : Dev nD) :
    after (RunP.ops (F := F)) (launchContents m c) (Proc.devRef .tc main_v73)
      = Graph.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [ops_eq, after_chunks, after_chunks, after_chunks, after_chunks]
  -- the graph's three arrays after the first stretch, and that the next two stretches keep them
  have s1 := src1 (launchContents m c) (m ((c.tc : Thread nD τ).loc main_arg1)) rfl
  have d1 := dst1 (launchContents m c) (m ((c.tc : Thread nD τ).loc main_arg1)) rfl
  have n1 := norm1 (launchContents m c) (m ((c.tc : Thread nD τ).loc main_arg1)) rfl
  have s3 := ((keep3 _ (r := main_v3) (by decide)).trans (keep2 _ (r := main_v3) (by decide))).trans s1
  have d3 := ((keep3 _ (r := main_v6) (by decide)).trans (keep2 _ (r := main_v6) (by decide))).trans d1
  have n3 := ((keep3 _ (r := main_v29) (by decide)).trans (keep2 _ (r := main_v29) (by decide))).trans n1
  -- the chain: first convolution, first layer, second convolution, head
  have c2 := conv2 _ _ _ _ s1 d1 n1 (keep1 (launchContents m c) (r := main_arg0) (by decide))
    (keep1 (launchContents m c) (r := main_arg2) (by decide))
  have h3 := hidden3 _ _ _ _ _ c2 ((keep2 _ (r := main_arg3) (by decide)).trans (keep1 (launchContents m c) (r := main_arg3) (by decide)))
  have c4 := conv4 _ _ _ _ s3 d3 n3 h3
    ((keep3 _ (r := main_arg4) (by decide)).trans ((keep2 _ (r := main_arg4) (by decide)).trans (keep1 (launchContents m c) (r := main_arg4) (by decide))))
  exact net5 _ _ _ _ _ _ _ _ _ _ _ c4
    ((keep4 _ (r := main_arg5) (by decide)).trans ((keep3 _ (r := main_arg5) (by decide)).trans ((keep2 _ (r := main_arg5) (by decide)).trans (keep1 (launchContents m c) (r := main_arg5) (by decide)))))
    ((keep4 _ (r := main_arg6) (by decide)).trans ((keep3 _ (r := main_arg6) (by decide)).trans ((keep2 _ (r := main_arg6) (by decide)).trans (keep1 (launchContents m c) (r := main_arg6) (by decide)))))
    ((keep4 _ (r := main_arg7) (by decide)).trans ((keep3 _ (r := main_arg7) (by decide)).trans ((keep2 _ (r := main_arg7) (by decide)).trans (keep1 (launchContents m c) (r := main_arg7) (by decide)))))
    ((keep4 _ (r := main_arg8) (by decide)).trans ((keep3 _ (r := main_arg8) (by decide)).trans ((keep2 _ (r := main_arg8) (by decide)).trans (keep1 (launchContents m c) (r := main_arg8) (by decide)))))
    ((keep4 _ (r := main_arg9) (by decide)).trans ((keep3 _ (r := main_arg9) (by decide)).trans ((keep2 _ (r := main_arg9) (by decide)).trans (keep1 (launchContents m c) (r := main_arg9) (by decide)))))

end Cert.ReferenceIdeal.RefRead

end
-- ==== Proof.KStage0.lean ====
import proofs.«106158_j59725815218350_1_alg».proof.Proof.Gen.KernelIdeal.Frame
import proofs.«106158_j59725815218350_1_alg».proof.Proof.Graph
import proofs.«106158_j59725815218350_1_alg».proof.Proof.LibStagedRun

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.Gcn Cert.Lib.StagedRun

variable {F : FTy → Type} [FloatOps F]

/-- A buffer none of a stretch's operations writes keeps its contents. -/
macro "kept_by" S:ident : tactic =>
  `(tactic| exact StableHlo.after_of_forall_not_mem _ _ (List.forall_iff_forall_mem.mp (by
      simp only [$S:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Stretch0
variable (V : Valuation τ sig (Elt F))

/-- The first stretch builds the two endpoint lists from the edge list. -/
theorem s0_v3 : after hostOps0 V (Proc.devRef .tc main_v3) = Graph.src (F := F) (V (Proc.devRef .tc main_arg1)) := by
  after_results
  unfold Graph.src
  rfl

theorem s0_v6 : after hostOps0 V (Proc.devRef .tc main_v6) = Graph.dst (F := F) (V (Proc.devRef .tc main_arg1)) := by
  after_results
  unfold Graph.dst
  rfl

/-- … and the degree, its positivity test and its inverse square root. -/
theorem s0_v12 : after hostOps0 V (Proc.devRef .tc main_v12)
    = cmpf (F := F) .ogt (Graph.deg (F := F) (V (Proc.devRef .tc main_arg1))) (broadcastInDim S50000 ![] bcast_S_S50000 (constant S_ .f32 0x00000000#32)) := by
  after_results
  unfold Graph.deg Graph.col Graph.dst
  rfl

theorem s0_v13 : after hostOps0 V (Proc.devRef .tc main_v13) = Host.rsqrt (Graph.deg (F := F) (V (Proc.devRef .tc main_arg1))) := by
  after_results
  unfold Graph.deg Graph.col Graph.dst
  rfl

theorem s0_cst2 : after hostOps0 V (Proc.devRef .tc main_cst_2) = constant (F := F) S_ .f32 0x00000000#32 := by
  after_results

/-- The edge list itself is not written. -/
theorem s0_arg1 : after hostOps0 V (Proc.devRef .tc main_arg1) = V (Proc.devRef .tc main_arg1) := by
  kept_by hostOps0

end Stretch0

section Stretch01
variable (V : Valuation τ sig (Elt F)) (e : (⟨Cert.ReferenceIdeal.S2x800000, .i32⟩ : BufTy).Contents (Elt F))

/-- The selection between the inverse square root and zero. -/
theorem s01_v14
    (h12 : V (Proc.devRef .tc main_v12) = cmpf (F := F) .ogt (Graph.deg (F := F) e) (broadcastInDim S50000 ![] bcast_S_S50000 (constant S_ .f32 0x00000000#32)))
    (h13 : V (Proc.devRef .tc main_v13) = Host.rsqrt (Graph.deg (F := F) e))
    (hc : V (Proc.devRef .tc main_cst_2) = constant (F := F) S_ .f32 0x00000000#32) :
    after hostOps0_1 V (Proc.devRef .tc main_v14) = Graph.dis (F := F) e := by
  after_results
  simp only [TRef.ofBuf, TRef.toBuf, TRef.of, cast_eq]
  rw [h12, h13, hc]
  unfold Graph.dis
  rfl

end Stretch01

end Cert.KernelIdeal.Stages

end
-- ==== Proof.KStage1.lean ====
/-
  The kernel program's host stretches between its four dense kernels, each read from ANY contents V it is entered
  with: the edge weights, the two graph convolutions, and the layout of the head's padded operands.
-/
import proofs.«106158_j59725815218350_1_alg».proof.Proof.Gen.KernelIdeal.Frame
import proofs.«106158_j59725815218350_1_alg».proof.Proof.Graph
import proofs.«106158_j59725815218350_1_alg».proof.Proof.LibStagedRun

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.Gcn Cert.Lib.StagedRun

variable {F : FTy → Type} [FloatOps F]

variable (V : Valuation τ sig (Elt F)) (e : (⟨Cert.ReferenceIdeal.S2x800000, .i32⟩ : BufTy).Contents (Elt F))

set_option maxHeartbeats 4000000 in
/-- The third stretch gathers the inverse square roots at both ends of every edge and multiplies them. -/
theorem s02_v29 (h3 : V (Proc.devRef .tc main_v3) = Graph.src (F := F) e) (h6 : V (Proc.devRef .tc main_v6) = Graph.dst (F := F) e)
    (h14 : V (Proc.devRef .tc main_v14) = Graph.dis (F := F) e) :
    after hostOps0_2 V (Proc.devRef .tc main_v29) = Graph.norm (F := F) e := by
  after_results_simp
  rw [h3, h6, h14]
  unfold Graph.norm Graph.wrapCol
  rfl

set_option maxHeartbeats 4000000 in
/-- The stretch after the first kernel convolves its output over the graph. -/
theorem s1_v43 (Y : (⟨Cert.ReferenceIdeal.S50000x128, .f32⟩ : BufTy).Contents (Elt F))
    (h3 : V (Proc.devRef .tc main_v3) = Graph.src (F := F) e) (h6 : V (Proc.devRef .tc main_v6) = Graph.dst (F := F) e)
    (h29 : V (Proc.devRef .tc main_v29) = Graph.norm (F := F) e) (h30 : V (Proc.devRef .tc main_v30) = Y) :
    after hostOps1 V (Proc.devRef .tc main_v43) = Graph.conv (F := F) Y e := by
  after_results_simp
  rw [h3, h6, h29, h30]
  unfold Graph.conv Graph.wrapCol Graph.col
  rfl

/-- … and lays the first bias vector out as a row. -/
theorem s1_v44 : after hostOps1 V (Proc.devRef .tc main_v44) = shapeCast S1x128 (V (Proc.devRef .tc main_arg3)) shapeCasts_S128_S1x128 := by
  after_results
  rfl

set_option maxHeartbeats 4000000 in
/-- The stretch after the second kernel convolves its output over the graph. -/
theorem s2_v58 (Y : (⟨Cert.ReferenceIdeal.S50000x128, .f32⟩ : BufTy).Contents (Elt F))
    (h3 : V (Proc.devRef .tc main_v3) = Graph.src (F := F) e) (h6 : V (Proc.devRef .tc main_v6) = Graph.dst (F := F) e)
    (h29 : V (Proc.devRef .tc main_v29) = Graph.norm (F := F) e) (h45 : V (Proc.devRef .tc main_v45) = Y) :
    after hostOps2 V (Proc.devRef .tc main_v58) = Graph.conv (F := F) Y e := by
  after_results_simp
  rw [h3, h6, h29, h45]
  unfold Graph.conv Graph.wrapCol Graph.col
  rfl

/-- … and lays the second and third bias vectors out as rows. -/
theorem s2_v59 : after hostOps2 V (Proc.devRef .tc main_v59) = shapeCast S1x128 (V (Proc.devRef .tc main_arg5)) shapeCasts_S128_S1x128 := by
  after_results
  rfl

theorem s2_v60 : after hostOps2 V (Proc.devRef .tc main_v60) = shapeCast S1x256 (V (Proc.devRef .tc main_arg7)) shapeCasts_S256_S1x256 := by
  after_results
  rfl

/-- The last stretch keeps the first ten columns of the last kernel's output. -/
theorem s4_v66 : after hostOps4 V (Proc.devRef .tc main_v66)
    = extractStridedSlice S50000x10 ![0, 0] (V (Proc.devRef .tc main_v65)) slices_S50000x128_S50000x10_0_0 := by
  after_results

end Cert.KernelIdeal.Stages

end
-- ==== Proof.KStage2.lean ====
/-
  The kernel program's host stretch before its last dense kernel: the head's [256 × 10] weights and 10-vector of biases
  padded with zeros to 128 columns (so that the last kernel stores full lanes), the bias laid out as a row.
-/
import proofs.«106158_j59725815218350_1_alg».proof.Proof.Gen.KernelIdeal.Frame
import proofs.«106158_j59725815218350_1_alg».proof.Proof.Graph
import proofs.«106158_j59725815218350_1_alg».proof.Proof.LibStagedRun

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.Gcn Cert.Lib.StagedRun

variable {F : FTy → Type} [FloatOps F]

variable (V : Valuation τ sig (Elt F))

/-- The five stretches between the third and the fourth kernel, as one fold. -/
abbrev padFold : Valuation τ sig (Elt F) :=
  after hostOps3_4 (after hostOps3_3 (after hostOps3_2 (after hostOps3_1 (after hostOps3 V))))

/-- The padded weights: the [256 × 10] array with 118 columns of the converted integer zero on the right. -/
theorem s3_v62 : padFold (F := F) V (Proc.devRef .tc main_v62)
    = pad S256x128 ![0, 0] ![0, 118] ![0, 0] (V (Proc.devRef .tc main_arg8)) (sitofp (F := F) .f32 (constantI S_ 32 0#32)) pads_S256x10_S256x128_000_01180 h_S_ := by
  after_results
  simp only [TRef.ofBuf, TRef.toBuf, TRef.of, cast_eq]

/-- The padded bias as a row. -/
theorem s3_v64 : padFold (F := F) V (Proc.devRef .tc main_v64)
    = shapeCast S1x128 (pad S128 ![0] ![118] ![0] (V (Proc.devRef .tc main_arg9)) (sitofp (F := F) .f32 (constantI S_ 32 0#32)) pads_S10_S128_01180 h_S_) shapeCasts_S128_S1x128 := by
  after_results
  simp only [TRef.ofBuf, TRef.toBuf, TRef.of, cast_eq]
  rfl

/-- The third kernel's output is not written between the two kernels. -/
theorem s3_v61 : padFold (F := F) V (Proc.devRef .tc main_v61) = V (Proc.devRef .tc main_v61) := by
  after_results

end Cert.KernelIdeal.Stages

end
-- ==== Proof.Spec.lean ====
/-
  The network's dense layers as whole-array functions over the extended reals.

  A matrix is a function on pairs of coordinates. The four dense stages of the graph network are each a product of a
  [50000 × K] array of node rows with a [K × c] array of weights, with a bias row added before or after it and a
  rectifier `max(·, 0)` before or after it. Each is stated here entry by entry: entry (r, v) of a product is the sum
  over the shared axis of the row's entry times the column's entry, a bias row b contributes b (0, v) (or b (0, q) when
  it is added before the product), and the rectifier is the maximum with zero. Nothing here mentions a program: both
  the tiled kernels and the host's whole-array operations are shown equal to these functions.
-/
import Idealize.ShloMosaic.PureOps.Ideal
import Idealize.ShloMosaic.Lib.ValueIdx

noncomputable section

open scoped BigOperators

namespace Cert.Gcn

open Idealize.ShloMosaic Idealize.ShloMosaic.ValueIdx

/-- An [n × k] array of extended reals. -/
abbrev Mat (n k : Nat) : Type := (⟨2, ![n, k]⟩ : Shape).Idx → EReal

/-- The product l · w of an [n × K] array with a [K × c] array: entry (r, v) is ∑ q < K, l (r, q) · w (q, v). -/
def mm {n K c : Nat} (l : Mat n K) (w : Mat K c) : Mat n c :=
  fun j => ∑ q : Fin K, l (ix2 (j 0) q) * w (ix2 q (j 1))

/-- A bias row added to every row of an array: entry (r, v) gains b (0, v). -/
def addRow {n k : Nat} (a : Mat n k) (b : Mat 1 k) : Mat n k :=
  fun j => a j + b (ix2 (0 : Fin 1) (j 1))

/-- The rectifier against a given zero: entry by entry the maximum with `z`. -/
def rect {n k : Nat} (z : EReal) (a : Mat n k) : Mat n k :=
  fun j => max (a j) z

/-- First layer's transform: x · W. -/
def layer0 {n K c : Nat} (x : Mat n K) (w : Mat K c) : Mat n c := mm x w

/-- Second layer's transform on the first layer's aggregate: max(a + b, 0) · W. -/
def layer1 {n K c : Nat} (z : EReal) (a : Mat n K) (b : Mat 1 K) (w : Mat K c) : Mat n c :=
  mm (rect z (addRow a b)) w

/-- The head's hidden layer on the second aggregate: max((a + b) · W + b', 0). -/
def layer2 {n K c : Nat} (z : EReal) (a : Mat n K) (b : Mat 1 K) (w : Mat K c) (b' : Mat 1 c) : Mat n c :=
  rect z (addRow (mm (addRow a b) w) b')

/-- The head's output layer: h · W + b. -/
def layer3 {n K c : Nat} (h : Mat n K) (w : Mat K c) (b : Mat 1 c) : Mat n c :=
  addRow (mm h w) b

end Cert.Gcn

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Region0.lean ====
/-
  The first dense stage, computed a block of 5000 node rows at a time: what its output array holds.

  At every grid point t the body multiplies rows 5000·t … 5000·t + 4999 of the node array with the whole weight
  array (the change of float format before the product is the identity on extended reals, and a product accumulated
  into zero is the plain sum over the shared axis). So the block it writes back is rows 5000·t … of the whole product
  x · W, and since the ten blocks tile the 50000 rows the output array ends holding x · W.
-/
import proofs.«106158_j59725815218350_1_alg».proof.Proof.Gen.KernelIdeal.Frame
import proofs.«106158_j59725815218350_1_alg».proof.Proof.Spec
import proofs.«106158_j59725815218350_1_alg».proof.Proof.LibDotRowsCols
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat)
open Cert.Gcn Cert.Lib.DotRowsCols

theorem hz : (![0, 0] : Fin 2 → Nat) = fun _ => 0 := funext fun a => by fin_cases a <;> rfl

/-- The body's product contracts the block's columns with the weights' rows. -/
theorem rowsCols : RowsCols dot_S5000x128_S128x128_S5000x128_1_0_0_1_n_n := ⟨rfl, rfl, rfl, rfl, rfl, rfl⟩

/-- The body's stored value at an entry: the sum over the shared axis. -/
theorem pay_apply (xa : Vec Ideal S5000x128 .f32) (xw : Vec Ideal S128x128 .f32) (j : S5000x128.Idx) :
    k0_pay1 (F := Ideal) xa xw j = ∑ q : Fin 128, xa (ix2 (j 0) q) * xw (ix2 q (j 1)) := by
  unfold k0_pay1
  exact rowsCols.matmul_zero_apply none (truncf .bf16 xa bitsLt_bf16_f32) (truncf .bf16 xw bitsLt_bf16_f32) j

/-- If the loaded blocks are the arrays A and W read through maps that send (row, q) and (q, column) of the block to
    (the output entry's row, q) and (q, the output entry's column) of the arrays, the stored value at an entry is the
    whole product's entry. -/
theorem pay_block (A : Mat 50000 128) (W : Mat 128 128) (xa : S5000x128.Idx → EReal) (xw : S128x128.Idx → EReal)
    (ea : S5000x128.Idx → S50000x128.Idx) (ew : S128x128.Idx → S128x128.Idx) (eo : S5000x128.Idx → S50000x128.Idx)
    (ha : ∀ y, xa y = A (ea y)) (hw : ∀ y, xw y = W (ew y))
    (h1 : ∀ (j : S5000x128.Idx) (q : Fin 128), ea (ix2 (j 0) q) = ix2 (eo j 0) q)
    (h2 : ∀ (j : S5000x128.Idx) (q : Fin 128), ew (ix2 q (j 1)) = ix2 q (eo j 1)) (j : S5000x128.Idx) :
    k0_pay1 (F := Ideal) xa xw j = layer0 A W (eo j) := by
  rw [pay_apply]
  unfold layer0 mm
  refine Finset.sum_congr rfl fun q _ => ?_
  exact congrArg₂ (· * ·) ((ha _).trans (congrArg A (h1 j q))) ((hw _).trans (congrArg W (h2 j q)))

/-- The printed index maps over the grid: the node rows' block moves with the output's, the weights stay, and the
    output's block at point t is block t. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product. -/
theorem flushed_eq (c : Dev nD) (t : Fin cfg0.N) :
    (dat0 (F := Ideal) V c).flushed 2 t
      = ((cfg0.win 2).blk t).view.read (Elt Ideal) (layer0 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine pay_block (V c (Pipeline.arrRef spec0 0)) (V c (Pipeline.arrRef spec0 1)) (iblk0 V c 0 t) (iblk0 V c 1 t)
    ((cfg0.win 0).blk t).view.emb ((cfg0.win 1).blk t).view.emb ((cfg0.win 2).blk t).view.emb
    (fun y => rfl) (fun y => rfl) ?_ ?_ j
  · intro j q
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  · intro j q
    funext a; apply Fin.ext
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output array lies in the block of the point its row divided by 5000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [show cfg0.N = 10 from N_0]; omega⟩, flush0_2 _, ?_⟩
  rw [mem_blk]
  obtain ⟨e0, e1, e2, e3, e4, e5⟩ := idx_facts ⟨(i 0).val / 5000, by rw [show cfg0.N = 10 from N_0]; omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 128 ≤ (i 1).val ∧ (i 1).val < win0_2.index _ (1 : Fin 2) * 128 + 128; rw [e5]; omega

/-- After the region its output array holds x · W of the two arrays it was entered with. -/
theorem arr (c : Dev nD) :
    (dat0 (F := Ideal) V c).arrAt 2 cfg0.N = layer0 (V c (Pipeline.arrRef spec0 0)) (V c (Pipeline.arrRef spec0 1)) :=
  (dat0 V c).arrAt_eq_of_cover 2 _ (fun t _ => flushed_eq V c t) cover

end Cert.KernelIdeal.Region0

end
-- ==== Proof.Region1.lean ====
/-
  The second dense stage, computed a block of 5000 node rows at a time: what its output array holds.

  At every grid point t the body takes rows 5000·t … 5000·t + 4999 of the node array a, adds the one bias row b to
  each of them, takes the maximum with zero entry by entry, and multiplies the result with the whole weight array W
  (a shape cast to the same shape is the identity, a [1 × 128] row broadcast to [5000 × 128] reads its one row at the
  entry's column, the change of float format before the product is the identity on extended reals, and a product
  accumulated into zero is the plain sum over the shared axis). The bias and the rectifier act entry by entry and the
  product row by row, so the block written back is rows 5000·t … of  max(a + b, 0) · W  of the whole arrays, and since
  the ten blocks tile the 50000 rows the output array ends holding max(a + b, 0) · W.
-/
import proofs.«106158_j59725815218350_1_alg».proof.Proof.Gen.KernelIdeal.Frame
import proofs.«106158_j59725815218350_1_alg».proof.Proof.Spec
import proofs.«106158_j59725815218350_1_alg».proof.Proof.LibDotRowsCols
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat)
open Cert.Gcn Cert.Lib.DotRowsCols

theorem hz : (![0, 0] : Fin 2 → Nat) = fun _ => 0 := funext fun a => by fin_cases a <;> rfl

/-- The body's product contracts the rectified block's columns with the weights' rows. -/
theorem rowsCols : RowsCols dot_S5000x128_S128x128_S5000x128_1_0_0_1_n_n := ⟨rfl, rfl, rfl, rfl, rfl, rfl⟩

/-- The one bias row broadcast over the block's 5000 rows reads, at (p, q), the row's entry q. -/
theorem bias_apply (xb : S1x128.Idx → EReal) (p : Fin 5000) (q : Fin 128) :
    broadcastTo S5000x128 xb broadcasts_S1x128_S5000x128 (ix2 p q) = xb (ix2 (0 : Fin 1) q) := by
  refine broadcastTo_apply xb broadcasts_S1x128_S5000x128 (ix2 p q) (ix2 (0 : Fin 1) q) fun a => ?_
  match a with
  | ⟨0, _⟩ => rfl
  | ⟨1, _⟩ => rfl

/-- The product's left operand at (p, q): the block's entry plus the bias row's entry q, rectified. -/
theorem lhs_apply (xa : Vec Ideal S5000x128 .f32) (xb : Vec Ideal S1x128 .f32) (p : Fin 5000) (q : Fin 128) :
    maximumf (F := Ideal)
        (addf (shapeCast S5000x128 xa shapeCasts_S5000x128_S5000x128)
          (broadcastTo S5000x128 (shapeCast S1x128 xb shapeCasts_S1x128_S1x128) broadcasts_S1x128_S5000x128))
        (broadcast S5000x128 (Scalar.ofBits .f32 0x00000000#32)) (ix2 p q)
      = max (xa (ix2 p q) + xb (ix2 (0 : Fin 1) q)) 0 := by
  rw [shapeCast_self, shapeCast_self]
  show max (xa (ix2 p q) + broadcastTo S5000x128 xb broadcasts_S1x128_S5000x128 (ix2 p q)) (Ideal.ofBits .f32 0x00000000#32) = _
  rw [bias_apply, Ideal.ofBits_zero_f32]

/-- The body's stored value at an entry: the sum over the shared axis of the rectified, biased block entries times the
    weights' entries. -/
theorem pay_apply (xa : Vec Ideal S5000x128 .f32) (xb : Vec Ideal S1x128 .f32) (xw : Vec Ideal S128x128 .f32) (j : S5000x128.Idx) :
    k1_pay1 (F := Ideal) xa xb xw j
      = ∑ q : Fin 128, max (xa (ix2 (j 0) q) + xb (ix2 (0 : Fin 1) q)) 0 * xw (ix2 q (j 1)) := by
  unfold k1_pay1
  refine (rowsCols.matmul_zero_apply none _ _ j).trans ?_
  refine Finset.sum_congr rfl fun q _ => ?_
  exact congrArg₂ (· * ·) (lhs_apply xa xb (j 0) q) rfl

/-- If the loaded blocks are the arrays A, B and W read through maps that send (row, q), (0, q) and (q, column) of the
    blocks to (the output entry's row, q), (0, q) and (q, the output entry's column) of the arrays, the stored value at
    an entry is the layer's entry. -/
theorem pay_block (A : Mat 50000 128) (B : Mat 1 128) (W : Mat 128 128)
    (xa : S5000x128.Idx → EReal) (xb : S1x128.Idx → EReal) (xw : S128x128.Idx → EReal)
    (ea : S5000x128.Idx → S50000x128.Idx) (eb : S1x128.Idx → S1x128.Idx) (ew : S128x128.Idx → S128x128.Idx)
    (eo : S5000x128.Idx → S50000x128.Idx)
    (ha : ∀ y, xa y = A (ea y)) (hb : ∀ y, xb y = B (eb y)) (hw : ∀ y, xw y = W (ew y))
    (h1 : ∀ (j : S5000x128.Idx) (q : Fin 128), ea (ix2 (j 0) q) = ix2 (eo j 0) q)
    (h2 : ∀ q : Fin 128, eb (ix2 (0 : Fin 1) q) = ix2 (0 : Fin 1) q)
    (h3 : ∀ (j : S5000x128.Idx) (q : Fin 128), ew (ix2 q (j 1)) = ix2 q (eo j 1)) (j : S5000x128.Idx) :
    k1_pay1 (F := Ideal) xa xb xw j = layer1 0 A B W (eo j) := by
  rw [pay_apply]
  unfold layer1 mm rect addRow
  refine Finset.sum_congr rfl fun q _ => ?_
  exact congrArg₂ (· * ·)
    (congrArg₂ (fun u v : EReal => max (u + v) 0) ((ha _).trans (congrArg A (h1 j q))) ((hb _).trans (congrArg B (h2 q))))
    ((hw _).trans (congrArg W (h3 j q)))

/-- The printed index maps over the grid: the node rows' block moves with the output's, the bias row and the weights
    stay, and the output's block at point t is block t. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the whole layer. -/
theorem flushed_eq (c : Dev nD) (t : Fin cfg1.N) :
    (dat1 (F := Ideal) V c).flushed 3 t
      = ((cfg1.win 3).blk t).view.read (Elt Ideal)
          (layer1 0 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  refine pay_block (V c (Pipeline.arrRef spec1 0)) (V c (Pipeline.arrRef spec1 1)) (V c (Pipeline.arrRef spec1 2))
    (iblk1 V c 0 t) (iblk1 V c 1 t) (iblk1 V c 2 t)
    ((cfg1.win 0).blk t).view.emb ((cfg1.win 1).blk t).view.emb ((cfg1.win 2).blk t).view.emb ((cfg1.win 3).blk t).view.emb
    (fun y => rfl) (fun y => rfl) (fun y => rfl) ?_ ?_ ?_ j
  · intro j q
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * q.val = q.val; omega
  · intro q
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · intro j q
    funext a; apply Fin.ext
    match a with
    | ⟨0, _⟩ => show win1_2.index t (0 : Fin 2) * 128 + 1 * q.val = q.val; omega
    | ⟨1, _⟩ => show win1_2.index t (1 : Fin 2) * 128 + 1 * (j 1).val = win1_3.index t (1 : Fin 2) * 128 + 1 * (j 1).val; omega

/-- An index of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every entry of the output array lies in the block of the point its row divided by 5000 names. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, by rw [show cfg1.N = 10 from N_1]; omega⟩, flush1_3 _, ?_⟩
  rw [mem_blk]
  obtain ⟨e0, e1, e2, e3, e4, e5, e6, e7⟩ := idx_facts ⟨(i 0).val / 5000, by rw [show cfg1.N = 10 from N_1]; omega⟩
  intro a
  match a with
  | ⟨0, _⟩ => show win1_3.index _ (0 : Fin 2) * 5000 ≤ (i 0).val ∧ (i 0).val < win1_3.index _ (0 : Fin 2) * 5000 + 5000; rw [e6]; dsimp only; omega
  | ⟨1, _⟩ => show win1_3.index _ (1 : Fin 2) * 128 ≤ (i 1).val ∧ (i 1).val < win1_3.index _ (1 : Fin 2) * 128 + 128; rw [e7]; omega

/-- After the region its output array holds max(a + b, 0) · W of the three arrays it was entered with. -/
theorem arr (c : Dev nD) :
    (dat1 (F := Ideal) V c).arrAt 3 cfg1.N
      = layer1 0 (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Region1

end
-- ==== Proof.Region2.lean ====
/-
  The head's hidden layer, computed a block of 5000 node rows at a time: what its output array holds.

  At every grid point t the body takes rows 5000·t … 5000·t + 4999 of the node array, adds the [1 × 128] bias row b to
  each of them, multiplies the result with the whole [128 × 256] weight array (the change of float format before the
  product is the identity on extended reals, and a product accumulated into zero is the plain sum over the shared
  axis), adds the [1 × 256] bias row b' to each row of the product and takes the maximum with zero entry by entry. So
  the block it writes back is rows 5000·t … of max((a + b) · W + b', 0), and since the ten blocks tile the 50000 rows
  the output array ends holding that whole array.
-/
import proofs.«106158_j59725815218350_1_alg».proof.Proof.Gen.KernelIdeal.Frame
import proofs.«106158_j59725815218350_1_alg».proof.Proof.Spec
import proofs.«106158_j59725815218350_1_alg».proof.Proof.LibDotRowsCols
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.ShloMosaic.Pipeline (Dat)
open Cert.Gcn Cert.Lib.DotRowsCols

theorem hz : (![0, 0] : Fin 2 → Nat) = fun _ => 0 := funext fun a => by fin_cases a <;> rfl

/-- The body's product contracts the block's columns with the weights' rows. -/
theorem rowsCols : RowsCols dot_S5000x128_S128x256_S5000x256_1_0_0_1_n_n := ⟨rfl, rfl, rfl, rfl, rfl, rfl⟩

/-- A [1 × 128] row repeated over 5000 rows reads, at an entry, the row's entry of that column: the row axis has
    length one, so it is read at 0, and the column axis is kept. -/
theorem bcast128 (v : S1x128.Idx → EReal) (h : S1x128.Broadcasts S5000x128) (j : S5000x128.Idx) :
    broadcastTo S5000x128 v h j = v (ix2 (0 : Fin 1) (j 1)) :=
  broadcastTo_apply v h j (ix2 (0 : Fin 1) (j 1)) fun a => by
    match a with
    | ⟨0, _⟩ => rfl
    | ⟨1, _⟩ => rfl

/-- A [1 × 256] row repeated over 5000 rows reads, at an entry, the row's entry of that column. -/
theorem bcast256 (v : S1x256.Idx → EReal) (h : S1x256.Broadcasts S5000x256) (j : S5000x256.Idx) :
    broadcastTo S5000x256 v h j = v (ix2 (0 : Fin 1) (j 1)) :=
  broadcastTo_apply v h j (ix2 (0 : Fin 1) (j 1)) fun a => by
    match a with
    | ⟨0, _⟩ => rfl
    | ⟨1, _⟩ => rfl

/-- The body's stored value at an entry (r, v): the sum over the shared axis of (block entry (r, q) plus the first
    bias row's entry q) times the weights' entry (q, v), plus the second bias row's entry v, and of that the maximum
    with zero. -/
theorem pay_apply (xa : Vec Ideal S5000x128 .f32) (xb : Vec Ideal S1x128 .f32) (xw : Vec Ideal S128x256 .f32)
    (xc : Vec Ideal S1x256 .f32) (j : S5000x256.Idx) :
    k2_pay1 (F := Ideal) xa xb xw xc j
      = max ((∑ q : Fin 128, (xa (ix2 (j 0) q) + xb (ix2 (0 : Fin 1) q)) * xw (ix2 q (j 1)))
          + xc (ix2 (0 : Fin 1) (j 1))) 0 := by
  unfold k2_pay1
  -- the maximum and the outer sum are taken entry by entry, and the splat constant's word encodes zero
  refine congrArg₂ max (congrArg₂ (· + ·) ?_ ?_) Ideal.ofBits_zero_f32
  · -- the product into zero is the sum over the shared axis; its left operand is the block plus the repeated row
    refine (rowsCols.matmul_zero_apply none _ _ j).trans (Finset.sum_congr rfl fun q _ => ?_)
    refine congrArg₂ (· * ·) ?_ rfl
    show shapeCast S5000x128 xa _ (ix2 (j 0) q) + broadcastTo S5000x128 (shapeCast S1x128 xb _) _ (ix2 (j 0) q) = _
    rw [shapeCast_self, shapeCast_self, bcast128]
  · -- the second bias row, repeated over the rows, read at the entry's column
    show broadcastTo S5000x256 (shapeCast S1x256 xc _) _ j = _
    rw [shapeCast_self, bcast256]

/-- If the loaded blocks are the arrays A, B, W, C read through maps that send (row, q) of the node block to (the output
    entry's row, q) of A, (q, column) of the weight block to (q, the output entry's column) of W, and keep the one-row
    blocks' (0, q) and (0, column) where they are (the column being the output entry's), the stored value at an entry is
    the layer's entry. -/
theorem pay_block (A : Mat 50000 128) (B : Mat 1 128) (W : Mat 128 256) (C : Mat 1 256)
    (xa : S5000x128.Idx → EReal) (xb : S1x128.Idx → EReal) (xw : S128x256.Idx → EReal) (xc : S1x256.Idx → EReal)
    (ea : S5000x128.Idx → S50000x128.Idx) (eb : S1x128.Idx → S1x128.Idx) (ew : S128x256.Idx → S128x256.Idx)
    (ec : S1x256.Idx → S1x256.Idx) (eo : S5000x256.Idx → S50000x256.Idx)
    (ha : ∀ y, xa y = A (ea y)) (hb : ∀ y, xb y = B (eb y)) (hw : ∀ y, xw y = W (ew y)) (hc : ∀ y, xc y = C (ec y))
    (h1 : ∀ (j : S5000x256.Idx) (q : Fin 128), ea (ix2 (j 0) q) = ix2 (eo j 0) q)
    (h2 : ∀ q : Fin 128, eb (ix2 (0 : Fin 1) q) = ix2 (0 : Fin 1) q)
    (h3 : ∀ (j : S5000x256.Idx) (q : Fin 128), ew (ix2 q (j 1)) = ix2 q (eo j 1))
    (h4 : ∀ j : S5000x256.Idx, ec (ix2 (0 : Fin 1) (j 1)) = ix2 (0 : Fin 1) (eo j 1)) (j : S5000x256.Idx) :
    k2_pay1 (F := Ideal) xa xb xw xc j = layer2 0 A B W C (eo j) := by
  rw [pay_apply]
  unfold layer2 rect addRow mm
  refine congrArg₂ max (congrArg₂ (· + ·) (Finset.sum_congr rfl fun q _ => ?_) ((hc _).trans (congrArg C (h4 j)))) rfl
  refine congrArg₂ (· * ·) (congrArg₂ (· + ·) ((ha _).trans (congrArg A (h1 j q))) ((hb _).trans (congrArg B (h2 q))))
    ((hw _).trans (congrArg W (h3 j q)))

/-- The printed index maps over the grid: the node rows' block moves with the output's, the two bias rows and the
    weights stay at block (0, 0), and the output's block at point t is block (t, 0). -/
theorem idx_facts : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point t writes back is block t of the whole layer. -/
theorem flushed_eq (c : Dev nD) (t : Fin cfg2.N) :
    (dat2 (F := Ideal) V c).flushed 4 t
      = ((cfg2.win 4).blk t).view.read (Elt Ideal)
          (layer2 0 (V c (Pipeline.arrRef spec2 0)) (V c (Pipeline.arrRef spec2 1)) (V c (Pipeline.arrRef spec2 2))
            (V c (Pipeline.arrRef spec2 3))) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz,
    View.ld_unit_zero (S := S128x256) hz, View.ld_unit_zero (S := S1x256) hz]
  obtain ⟨e0, e1, e2, e3, e4, e5, e6, e7, e8, e9⟩ := idx_facts t
  funext j
  refine pay_block (V c (Pipeline.arrRef spec2 0)) (V c (Pipeline.arrRef spec2 1)) (V c (Pipeline.arrRef spec2 2))
    (V c (Pipeline.arrRef spec2 3)) (iblk2 V c 0 t) (iblk2 V c 1 t) (iblk2 V c 2 t) (iblk2 V c 3 t)
    ((cfg2.win 0).blk t).view.emb ((cfg2.win 1).blk t).view.emb ((cfg2.win 2).blk t).view.emb
    ((cfg2.win 3).blk t).view.emb ((cfg2.win 4).blk t).view.emb
    (fun y => rfl) (fun y => rfl) (fun y => rfl) (fun y => rfl) ?_ ?_ ?_ ?_ j
  · -- node block (row, q) ↦ (the output entry's row, q)
    intro j q
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * q.val = q.val; omega
  · -- first bias row (0, q) ↦ (0, q)
    intro q
    funext a; apply Fin.ext
    match a with
    | ⟨0, _⟩ => show win2_1.index t (0 : Fin 2) * 1 + 1 * 0 = 0; omega
    | ⟨1, _⟩ => show win2_1.index t (1 : Fin 2) * 128 + 1 * q.val = q.val; omega
  · -- weights (q, column) ↦ (q, the output entry's column)
    intro j q
    funext a; apply Fin.ext
    match a with
    | ⟨0, _⟩ => show win2_2.index t (0 : Fin 2) * 128 + 1 * q.val = q.val; omega
    | ⟨1, _⟩ => show win2_2.index t (1 : Fin 2) * 256 + 1 * (j 1).val = win2_4.index t (1 : Fin 2) * 256 + 1 * (j 1).val; omega
  · -- second bias row (0, column) ↦ (0, the output entry's column)
    intro j
    funext a; apply Fin.ext
    match a with
    | ⟨0, _⟩ => show win2_3.index t (0 : Fin 2) * 1 + 1 * 0 = 0; omega
    | ⟨1, _⟩ => show win2_3.index t (1 : Fin 2) * 256 + 1 * (j 1).val = win2_4.index t (1 : Fin 2) * 256 + 1 * (j 1).val; omega

/-- An index of the output array is in point t's block iff each coordinate is in the block's range on its axis. -/
theorem mem_blk (t : Fin cfg2.N) (i : S50000x256.Idx) :
    i ∈ ((cfg2.win 4).blk t).view.set ↔ ∀ a : Fin 2, win2_4.index t a * S5000x256.size a ≤ (i a).val ∧ (i a).val < win2_4.index t a * S5000x256.size a + S5000x256.size a := by
  show i ∈ ((View.whole main_v61).slice (win2_4.rect t)).set ↔ _
  rw [View.set_slice_whole, Rect.mem_set_unit]
  exact Iff.rfl

/-- Every entry of the output array lies in the block of the point its row divided by 5000 names. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  refine ⟨⟨(i 0).val / 5000, by rw [show cfg2.N = 10 from N_2]; omega⟩, flush2_4 _, ?_⟩
  rw [mem_blk]
  obtain ⟨e0, e1, e2, e3, e4, e5, e6, e7, e8, e9⟩ := idx_facts ⟨(i 0).val / 5000, by rw [show cfg2.N = 10 from N_2]; omega⟩
  intro a
  match a with
  | ⟨0, _⟩ => show win2_4.index _ (0 : Fin 2) * 5000 ≤ (i 0).val ∧ (i 0).val < win2_4.index _ (0 : Fin 2) * 5000 + 5000; rw [e8]; dsimp only; omega
  | ⟨1, _⟩ => show win2_4.index _ (1 : Fin 2) * 256 ≤ (i 1).val ∧ (i 1).val < win2_4.index _ (1 : Fin 2) * 256 + 256; rw [e9]; omega

/-- After the region its output array holds max((a + b) · W + b', 0) of the four arrays it was entered with. -/
theorem arr (c : Dev nD) :
    (dat2 (F := Ideal) V c).arrAt 4 cfg2.N
      = layer2 0 (V c (Pipeline.arrRef spec2 0)) (V c (Pipeline.arrRef spec2 1)) (V c (Pipeline.arrRef spec2 2)) (V c (Pipeline.arrRef spec2 3)) :=
  (dat2 V c).arrAt_eq_of_cover 4 _ (fun t _ => flushed_eq V c t) cover

end Cert.KernelIdeal.Region2

end
-- ==== Proof.Region3.lean ====
/-
  The head's output stage, computed a block of 5000 node rows at a time: what its output array holds.

  At every grid point t the body multiplies rows 5000·t … 5000·t + 4999 of the hidden array with the whole weight
  array (a cast to the same shape and the change of float format before the product are the identity on extended
  reals, and a product accumulated into zero is the plain sum over the shared axis), and then adds the one bias row
  to every row of the block. So the block it writes back is rows 5000·t … of h · W + b, and since the ten blocks tile
  the 50000 rows the output array ends holding h · W + b.
-/
import proofs.«106158_j59725815218350_1_alg».proof.Proof.Gen.KernelIdeal.Frame
import proofs.«106158_j59725815218350_1_alg».proof.Proof.Spec
import proofs.«106158_j59725815218350_1_alg».proof.Proof.LibDotRowsCols
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.ShloMosaic.Pipeline (Dat)
open Cert.Gcn Cert.Lib.DotRowsCols

theorem hz : (![0, 0] : Fin 2 → Nat) = fun _ => 0 := funext fun a => by fin_cases a <;> rfl

/-- The body's product contracts the block's columns with the weights' rows. -/
theorem rowsCols : RowsCols dot_S5000x256_S256x128_S5000x128_1_0_0_1_n_n := ⟨rfl, rfl, rfl, rfl, rfl, rfl⟩

/-- The one bias row broadcast over the block's rows reads, at an entry, the row's entry in that column: on the
    row's unit axis the operand's coordinate is 0, on the column axis (of length 128, not 1) it is the entry's. -/
theorem bias_apply (xb : S1x128.Idx → EReal) (j : S5000x128.Idx) :
    broadcastTo S5000x128 xb broadcasts_S1x128_S5000x128 j = xb (ix2 (0 : Fin 1) (j 1)) := by
  refine broadcastTo_apply xb broadcasts_S1x128_S5000x128 j (ix2 (0 : Fin 1) (j 1)) fun a => ?_
  match a with
  | ⟨0, _⟩ => rfl
  | ⟨1, _⟩ => rfl

/-- The body's stored value at an entry: the sum over the shared axis, plus the bias row's entry in that column. -/
theorem pay_apply (xa : Vec Ideal S5000x256 .f32) (xw : Vec Ideal S256x128 .f32) (xb : Vec Ideal S1x128 .f32)
    (j : S5000x128.Idx) :
    k3_pay1 (F := Ideal) xa xw xb j
      = (∑ q : Fin 256, xa (ix2 (j 0) q) * xw (ix2 q (j 1))) + xb (ix2 (0 : Fin 1) (j 1)) := by
  unfold k3_pay1
  simp only [shapeCast_self]
  refine (addf_apply _ _ j).trans (congrArg₂ (· + ·) ?_ (bias_apply xb j))
  exact rowsCols.matmul_zero_apply none (truncf .bf16 xa bitsLt_bf16_f32) (truncf .bf16 xw bitsLt_bf16_f32) j

/-- If the loaded blocks are the arrays H, W and B read through maps that send (row, q), (q, column) and (0, column)
    of the blocks to (the output entry's row, q), (q, the output entry's column) and (0, the output entry's column)
    of the arrays, the stored value at an entry is the entry of h · W + b. -/
theorem pay_block (H : Mat 50000 256) (W : Mat 256 128) (B : Mat 1 128)
    (xa : S5000x256.Idx → EReal) (xw : S256x128.Idx → EReal) (xb : S1x128.Idx → EReal)
    (ea : S5000x256.Idx → S50000x256.Idx) (ew : S256x128.Idx → S256x128.Idx) (eb : S1x128.Idx → S1x128.Idx)
    (eo : S5000x128.Idx → S50000x128.Idx)
    (ha : ∀ y, xa y = H (ea y)) (hw : ∀ y, xw y = W (ew y)) (hb : ∀ y, xb y = B (eb y))
    (h1 : ∀ (j : S5000x128.Idx) (q : Fin 256), ea (ix2 (j 0) q) = ix2 (eo j 0) q)
    (h2 : ∀ (j : S5000x128.Idx) (q : Fin 256), ew (ix2 q (j 1)) = ix2 q (eo j 1))
    (h3 : ∀ j : S5000x128.Idx, eb (ix2 (0 : Fin 1) (j 1)) = ix2 (0 : Fin 1) (eo j 1)) (j : S5000x128.Idx) :
    k3_pay1 (F := Ideal) xa xw xb j = layer3 H W B (eo j) := by
  rw [pay_apply]
  unfold layer3 addRow mm
  refine congrArg₂ (· + ·) (Finset.sum_congr rfl fun q _ => ?_) ((hb _).trans (congrArg B (h3 j)))
  exact congrArg₂ (· * ·) ((ha _).trans (congrArg H (h1 j q))) ((hw _).trans (congrArg W (h2 j q)))

/-- The printed index maps over the grid: the hidden rows' block moves with the output's, the weights and the bias
    row stay, and the output's block at point t is block t. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of h · W + b. -/
theorem flushed_eq (c : Dev nD) (t : Fin cfg3.N) :
    (dat3 (F := Ideal) V c).flushed 3 t
      = ((cfg3.win 3).blk t).view.read (Elt Ideal)
          (layer3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x256) hz, View.ld_unit_zero (S := S256x128) hz,
    View.ld_unit_zero (S := S1x128) hz]
  obtain ⟨e0, e1, e2, e3, e4, e5, e6, e7⟩ := idx_facts t
  funext j
  refine pay_block (V c (Pipeline.arrRef spec3 0)) (V c (Pipeline.arrRef spec3 1)) (V c (Pipeline.arrRef spec3 2))
    (iblk3 V c 0 t) (iblk3 V c 1 t) (iblk3 V c 2 t)
    ((cfg3.win 0).blk t).view.emb ((cfg3.win 1).blk t).view.emb ((cfg3.win 2).blk t).view.emb
    ((cfg3.win 3).blk t).view.emb
    (fun y => rfl) (fun y => rfl) (fun y => rfl) ?_ ?_ ?_ j
  · intro j q
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 256 + 1 * q.val = q.val; omega
  · intro j q
    funext a; apply Fin.ext
    match a with
    | ⟨0, _⟩ => show win3_1.index t (0 : Fin 2) * 256 + 1 * q.val = q.val; omega
    | ⟨1, _⟩ => show win3_1.index t (1 : Fin 2) * 128 + 1 * (j 1).val = win3_3.index t (1 : Fin 2) * 128 + 1 * (j 1).val; omega
  · intro j
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the output array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v65).slice (win3_3.rect t)).set ↔ _
  rw [View.set_slice_whole, Rect.mem_set_unit]
  exact Iff.rfl

/-- Every entry of the output array lies in the block of the point its row divided by 5000 names. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  refine ⟨⟨(i 0).val / 5000, by rw [show cfg3.N = 10 from N_3]; omega⟩, flush3_3 _, ?_⟩
  rw [mem_blk]
  obtain ⟨e0, e1, e2, e3, e4, e5, e6, e7⟩ := idx_facts ⟨(i 0).val / 5000, by rw [show cfg3.N = 10 from N_3]; omega⟩
  intro a
  match a with
  | ⟨0, _⟩ => show win3_3.index _ (0 : Fin 2) * 5000 ≤ (i 0).val ∧ (i 0).val < win3_3.index _ (0 : Fin 2) * 5000 + 5000; rw [e6]; dsimp only; omega
  | ⟨1, _⟩ => show win3_3.index _ (1 : Fin 2) * 128 ≤ (i 1).val ∧ (i 1).val < win3_3.index _ (1 : Fin 2) * 128 + 128; rw [e7]; omega

/-- After the region its output array holds h · W + b of the three arrays it was entered with. -/
theorem arr (c : Dev nD) :
    (dat3 (F := Ideal) V c).arrAt 3 cfg3.N
      = layer3 (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.Region3

end
-- ==== Proof.KChain.lean ====
/-
  The kernel program's buffers at each boundary between its host stretches and its four dense kernels, as functions
  of the argument arrays: the edge lists and weights, the first product x · W0, its convolution over the graph, the
  second dense stage, the second convolution, the head's hidden stage, the padded head operands, the last dense
  stage and, at the end, the first ten columns of its output.
-/
import proofs.«106158_j59725815218350_1_alg».proof.Proof.KStage0
import proofs.«106158_j59725815218350_1_alg».proof.Proof.KStage1
import proofs.«106158_j59725815218350_1_alg».proof.Proof.KStage2
import proofs.«106158_j59725815218350_1_alg».proof.Proof.Region0
import proofs.«106158_j59725815218350_1_alg».proof.Proof.Region1
import proofs.«106158_j59725815218350_1_alg».proof.Proof.Region2
import proofs.«106158_j59725815218350_1_alg».proof.Proof.Region3

set_option maxRecDepth 16384

noncomputable section

namespace Cert.KernelIdeal.Chain

open Cert.KernelIdeal Cert.KernelIdeal.Gen Cert.KernelIdeal.Stages Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## The argument arrays are never written: each is read back at the boundary where it is used -/

theorem w3_arg0 : W3 m ρ c (Proc.devRef .tc main_arg0) = arg m c main_arg0 :=
  calc W3 m ρ c (Proc.devRef .tc main_arg0)
    _ = W2 m ρ c (Proc.devRef .tc main_arg0) := by kept_by hostOps0_2
    _ = W1 m ρ c (Proc.devRef .tc main_arg0) := by kept_by hostOps0_1
    _ = W0 m ρ c (Proc.devRef .tc main_arg0) := by kept_by hostOps0
    _ = arg m c main_arg0 := rfl

theorem w3_arg2 : W3 m ρ c (Proc.devRef .tc main_arg2) = arg m c main_arg2 :=
  calc W3 m ρ c (Proc.devRef .tc main_arg2)
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = arg m c main_arg2 := rfl

theorem w4_arg3 : W4 m ρ c (Proc.devRef .tc main_arg3) = arg m c main_arg3 :=
  calc W4 m ρ c (Proc.devRef .tc main_arg3)
    _ = W3 m ρ c (Proc.devRef .tc main_arg3) := W4_of_ne m ρ c main_arg3 (by decide)
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = arg m c main_arg3 := rfl

theorem w5_arg4 : W5 m ρ c (Proc.devRef .tc main_arg4) = arg m c main_arg4 :=
  calc W5 m ρ c (Proc.devRef .tc main_arg4)
    _ = W4 m ρ c (Proc.devRef .tc main_arg4) := by kept_by hostOps1
    _ = W3 m ρ c (Proc.devRef .tc main_arg4) := W4_of_ne m ρ c main_arg4 (by decide)
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = arg m c main_arg4 := rfl

theorem w6_arg5 : W6 m ρ c (Proc.devRef .tc main_arg5) = arg m c main_arg5 :=
  calc W6 m ρ c (Proc.devRef .tc main_arg5)
    _ = W5 m ρ c (Proc.devRef .tc main_arg5) := W6_of_ne m ρ c main_arg5 (by decide)
    _ = W4 m ρ c (Proc.devRef .tc main_arg5) := by kept_by hostOps1
    _ = W3 m ρ c (Proc.devRef .tc main_arg5) := W4_of_ne m ρ c main_arg5 (by decide)
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = arg m c main_arg5 := rfl

theorem w6_arg7 : W6 m ρ c (Proc.devRef .tc main_arg7) = arg m c main_arg7 :=
  calc W6 m ρ c (Proc.devRef .tc main_arg7)
    _ = W5 m ρ c (Proc.devRef .tc main_arg7) := W6_of_ne m ρ c main_arg7 (by decide)
    _ = W4 m ρ c (Proc.devRef .tc main_arg7) := by kept_by hostOps1
    _ = W3 m ρ c (Proc.devRef .tc main_arg7) := W4_of_ne m ρ c main_arg7 (by decide)
    _ = W2 m ρ c (Proc.devRef .tc main_arg7) := by kept_by hostOps0_2
    _ = W1 m ρ c (Proc.devRef .tc main_arg7) := by kept_by hostOps0_1
    _ = W0 m ρ c (Proc.devRef .tc main_arg7) := by kept_by hostOps0
    _ = arg m c main_arg7 := rfl

theorem w7_arg6 : W7 m ρ c (Proc.devRef .tc main_arg6) = arg m c main_arg6 :=
  calc W7 m ρ c (Proc.devRef .tc main_arg6)
    _ = W6 m ρ c (Proc.devRef .tc main_arg6) := by kept_by hostOps2
    _ = W5 m ρ c (Proc.devRef .tc main_arg6) := W6_of_ne m ρ c main_arg6 (by decide)
    _ = W4 m ρ c (Proc.devRef .tc main_arg6) := by kept_by hostOps1
    _ = W3 m ρ c (Proc.devRef .tc main_arg6) := W4_of_ne m ρ c main_arg6 (by decide)
    _ = W2 m ρ c (Proc.devRef .tc main_arg6) := by kept_by hostOps0_2
    _ = W1 m ρ c (Proc.devRef .tc main_arg6) := by kept_by hostOps0_1
    _ = W0 m ρ c (Proc.devRef .tc main_arg6) := by kept_by hostOps0
    _ = arg m c main_arg6 := rfl

theorem w8_arg8 : W8 m ρ c (Proc.devRef .tc main_arg8) = arg m c main_arg8 :=
  calc W8 m ρ c (Proc.devRef .tc main_arg8)
    _ = W7 m ρ c (Proc.devRef .tc main_arg8) := W8_of_ne m ρ c main_arg8 (by decide)
    _ = W6 m ρ c (Proc.devRef .tc main_arg8) := by kept_by hostOps2
    _ = W5 m ρ c (Proc.devRef .tc main_arg8) := W6_of_ne m ρ c main_arg8 (by decide)
    _ = W4 m ρ c (Proc.devRef .tc main_arg8) := by kept_by hostOps1
    _ = W3 m ρ c (Proc.devRef .tc main_arg8) := W4_of_ne m ρ c main_arg8 (by decide)
    _ = W2 m ρ c (Proc.devRef .tc main_arg8) := by kept_by hostOps0_2
    _ = W1 m ρ c (Proc.devRef .tc main_arg8) := by kept_by hostOps0_1
    _ = W0 m ρ c (Proc.devRef .tc main_arg8) := by kept_by hostOps0
    _ = arg m c main_arg8 := rfl

theorem w8_arg9 : W8 m ρ c (Proc.devRef .tc main_arg9) = arg m c main_arg9 :=
  calc W8 m ρ c (Proc.devRef .tc main_arg9)
    _ = W7 m ρ c (Proc.devRef .tc main_arg9) := W8_of_ne m ρ c main_arg9 (by decide)
    _ = W6 m ρ c (Proc.devRef .tc main_arg9) := by kept_by hostOps2
    _ = W5 m ρ c (Proc.devRef .tc main_arg9) := W6_of_ne m ρ c main_arg9 (by decide)
    _ = W4 m ρ c (Proc.devRef .tc main_arg9) := by kept_by hostOps1
    _ = W3 m ρ c (Proc.devRef .tc main_arg9) := W4_of_ne m ρ c main_arg9 (by decide)
    _ = W2 m ρ c (Proc.devRef .tc main_arg9) := by kept_by hostOps0_2
    _ = W1 m ρ c (Proc.devRef .tc main_arg9) := by kept_by hostOps0_1
    _ = W0 m ρ c (Proc.devRef .tc main_arg9) := by kept_by hostOps0
    _ = arg m c main_arg9 := rfl

/-! ## The graph's edge lists and weights -/

theorem w1_v3 : W1 m ρ c (Proc.devRef .tc main_v3) = Graph.src (F := Ideal) (arg m c main_arg1) := s0_v3 (W0 m ρ c)
theorem w1_v6 : W1 m ρ c (Proc.devRef .tc main_v6) = Graph.dst (F := Ideal) (arg m c main_arg1) := s0_v6 (W0 m ρ c)
theorem w2_v3 : W2 m ρ c (Proc.devRef .tc main_v3) = Graph.src (F := Ideal) (arg m c main_arg1) :=
  (by kept_by hostOps0_1 : W2 m ρ c (Proc.devRef .tc main_v3) = W1 m ρ c (Proc.devRef .tc main_v3)).trans (w1_v3 m ρ c)
theorem w2_v6 : W2 m ρ c (Proc.devRef .tc main_v6) = Graph.dst (F := Ideal) (arg m c main_arg1) :=
  (by kept_by hostOps0_1 : W2 m ρ c (Proc.devRef .tc main_v6) = W1 m ρ c (Proc.devRef .tc main_v6)).trans (w1_v6 m ρ c)
theorem w2_v14 : W2 m ρ c (Proc.devRef .tc main_v14) = Graph.dis (F := Ideal) (arg m c main_arg1) :=
  s01_v14 (W1 m ρ c) (arg m c main_arg1) (s0_v12 (W0 m ρ c)) (s0_v13 (W0 m ρ c)) (s0_cst2 (W0 m ρ c))
theorem w3_v3 : W3 m ρ c (Proc.devRef .tc main_v3) = Graph.src (F := Ideal) (arg m c main_arg1) :=
  (by kept_by hostOps0_2 : W3 m ρ c (Proc.devRef .tc main_v3) = W2 m ρ c (Proc.devRef .tc main_v3)).trans (w2_v3 m ρ c)
theorem w3_v6 : W3 m ρ c (Proc.devRef .tc main_v6) = Graph.dst (F := Ideal) (arg m c main_arg1) :=
  (by kept_by hostOps0_2 : W3 m ρ c (Proc.devRef .tc main_v6) = W2 m ρ c (Proc.devRef .tc main_v6)).trans (w2_v6 m ρ c)
theorem w3_v29 : W3 m ρ c (Proc.devRef .tc main_v29) = Graph.norm (F := Ideal) (arg m c main_arg1) :=
  s02_v29 (W2 m ρ c) (arg m c main_arg1) (w2_v3 m ρ c) (w2_v6 m ρ c) (w2_v14 m ρ c)

/-! ## The first dense kernel and the first convolution -/

theorem w4_v30 : W4 m ρ c (Proc.devRef .tc main_v30) = layer0 (arg m c main_arg0) (arg m c main_arg2) :=
  (W4_arr m ρ c 2).trans ((Region0.arr (V3 m ρ) c).trans (by
    rw [show V3 m ρ c (Pipeline.arrRef spec0 0) = arg m c main_arg0 from w3_arg0 m ρ c,
      show V3 m ρ c (Pipeline.arrRef spec0 1) = arg m c main_arg2 from w3_arg2 m ρ c]))
theorem w4_v3 : W4 m ρ c (Proc.devRef .tc main_v3) = Graph.src (F := Ideal) (arg m c main_arg1) :=
  (W4_of_ne m ρ c main_v3 (by decide)).trans (w3_v3 m ρ c)
theorem w4_v6 : W4 m ρ c (Proc.devRef .tc main_v6) = Graph.dst (F := Ideal) (arg m c main_arg1) :=
  (W4_of_ne m ρ c main_v6 (by decide)).trans (w3_v6 m ρ c)
theorem w4_v29 : W4 m ρ c (Proc.devRef .tc main_v29) = Graph.norm (F := Ideal) (arg m c main_arg1) :=
  (W4_of_ne m ρ c main_v29 (by decide)).trans (w3_v29 m ρ c)
theorem w5_v43 : W5 m ρ c (Proc.devRef .tc main_v43)
    = Graph.conv (F := Ideal) (layer0 (arg m c main_arg0) (arg m c main_arg2)) (arg m c main_arg1) :=
  s1_v43 (W4 m ρ c) (arg m c main_arg1) _ (w4_v3 m ρ c) (w4_v6 m ρ c) (w4_v29 m ρ c) (w4_v30 m ρ c)
theorem w5_v44 : W5 m ρ c (Proc.devRef .tc main_v44) = shapeCast S1x128 (arg m c main_arg3) shapeCasts_S128_S1x128 :=
  (s1_v44 (W4 m ρ c)).trans (by rw [w4_arg3 m ρ c])
theorem w5_v3 : W5 m ρ c (Proc.devRef .tc main_v3) = Graph.src (F := Ideal) (arg m c main_arg1) :=
  (by kept_by hostOps1 : W5 m ρ c (Proc.devRef .tc main_v3) = W4 m ρ c (Proc.devRef .tc main_v3)).trans (w4_v3 m ρ c)
theorem w5_v6 : W5 m ρ c (Proc.devRef .tc main_v6) = Graph.dst (F := Ideal) (arg m c main_arg1) :=
  (by kept_by hostOps1 : W5 m ρ c (Proc.devRef .tc main_v6) = W4 m ρ c (Proc.devRef .tc main_v6)).trans (w4_v6 m ρ c)
theorem w5_v29 : W5 m ρ c (Proc.devRef .tc main_v29) = Graph.norm (F := Ideal) (arg m c main_arg1) :=
  (by kept_by hostOps1 : W5 m ρ c (Proc.devRef .tc main_v29) = W4 m ρ c (Proc.devRef .tc main_v29)).trans (w4_v29 m ρ c)

/-! ## The second dense kernel and the second convolution -/

/-- The first aggregate: the convolution of x · W0. -/
abbrev agg0 : Mat 50000 128 := Graph.conv (F := Ideal) (layer0 (arg m c main_arg0) (arg m c main_arg2)) (arg m c main_arg1)
/-- The second dense stage's output. -/
abbrev y1 : Mat 50000 128 :=
  layer1 0 (agg0 m c) (shapeCast S1x128 (arg m c main_arg3) shapeCasts_S128_S1x128) (arg m c main_arg4)

theorem w6_v45 : W6 m ρ c (Proc.devRef .tc main_v45) = y1 m c :=
  (W6_arr m ρ c 3).trans ((Region1.arr (V5 m ρ) c).trans (by
    rw [show V5 m ρ c (Pipeline.arrRef spec1 0) = agg0 m c from w5_v43 m ρ c,
      show V5 m ρ c (Pipeline.arrRef spec1 1) = shapeCast S1x128 (arg m c main_arg3) shapeCasts_S128_S1x128 from w5_v44 m ρ c,
      show V5 m ρ c (Pipeline.arrRef spec1 2) = arg m c main_arg4 from w5_arg4 m ρ c]))
theorem w6_v3 : W6 m ρ c (Proc.devRef .tc main_v3) = Graph.src (F := Ideal) (arg m c main_arg1) :=
  (W6_of_ne m ρ c main_v3 (by decide)).trans (w5_v3 m ρ c)
theorem w6_v6 : W6 m ρ c (Proc.devRef .tc main_v6) = Graph.dst (F := Ideal) (arg m c main_arg1) :=
  (W6_of_ne m ρ c main_v6 (by decide)).trans (w5_v6 m ρ c)
theorem w6_v29 : W6 m ρ c (Proc.devRef .tc main_v29) = Graph.norm (F := Ideal) (arg m c main_arg1) :=
  (W6_of_ne m ρ c main_v29 (by decide)).trans (w5_v29 m ρ c)
theorem w7_v58 : W7 m ρ c (Proc.devRef .tc main_v58) = Graph.conv (F := Ideal) (y1 m c) (arg m c main_arg1) :=
  s2_v58 (W6 m ρ c) (arg m c main_arg1) _ (w6_v3 m ρ c) (w6_v6 m ρ c) (w6_v29 m ρ c) (w6_v45 m ρ c)
theorem w7_v59 : W7 m ρ c (Proc.devRef .tc main_v59) = shapeCast S1x128 (arg m c main_arg5) shapeCasts_S128_S1x128 :=
  (s2_v59 (W6 m ρ c)).trans (by rw [w6_arg5 m ρ c])
theorem w7_v60 : W7 m ρ c (Proc.devRef .tc main_v60) = shapeCast S1x256 (arg m c main_arg7) shapeCasts_S256_S1x256 :=
  (s2_v60 (W6 m ρ c)).trans (by rw [w6_arg7 m ρ c])

/-! ## The head -/

/-- The head's hidden stage's output. -/
abbrev y2 : Mat 50000 256 :=
  layer2 0 (Graph.conv (F := Ideal) (y1 m c) (arg m c main_arg1)) (shapeCast S1x128 (arg m c main_arg5) shapeCasts_S128_S1x128)
    (arg m c main_arg6) (shapeCast S1x256 (arg m c main_arg7) shapeCasts_S256_S1x256)

theorem w8_v61 : W8 m ρ c (Proc.devRef .tc main_v61) = y2 m c :=
  (W8_arr m ρ c 4).trans ((Region2.arr (V7 m ρ) c).trans (by
    rw [show V7 m ρ c (Pipeline.arrRef spec2 0) = Graph.conv (F := Ideal) (y1 m c) (arg m c main_arg1) from w7_v58 m ρ c,
      show V7 m ρ c (Pipeline.arrRef spec2 1) = shapeCast S1x128 (arg m c main_arg5) shapeCasts_S128_S1x128 from w7_v59 m ρ c,
      show V7 m ρ c (Pipeline.arrRef spec2 2) = arg m c main_arg6 from w7_arg6 m ρ c,
      show V7 m ρ c (Pipeline.arrRef spec2 3) = shapeCast S1x256 (arg m c main_arg7) shapeCasts_S256_S1x256 from w7_v60 m ρ c]))

/-- The head's weights padded to 128 columns. -/
abbrev wPad : Mat 256 128 :=
  pad S256x128 ![0, 0] ![0, 118] ![0, 0] (arg m c main_arg8) (sitofp (F := Ideal) .f32 (constantI S_ 32 0#32)) pads_S256x10_S256x128_000_01180 h_S_
/-- The head's biases padded to 128 entries, as a row. -/
abbrev bPad : Mat 1 128 :=
  shapeCast S1x128 (pad S128 ![0] ![118] ![0] (arg m c main_arg9) (sitofp (F := Ideal) .f32 (constantI S_ 32 0#32)) pads_S10_S128_01180 h_S_) shapeCasts_S128_S1x128

theorem w13_v62 : W13 m ρ c (Proc.devRef .tc main_v62) = wPad m c :=
  (s3_v62 (W8 m ρ c)).trans (by rw [w8_arg8 m ρ c])
theorem w13_v64 : W13 m ρ c (Proc.devRef .tc main_v64) = bPad m c :=
  (s3_v64 (W8 m ρ c)).trans (by rw [w8_arg9 m ρ c])
theorem w13_v61 : W13 m ρ c (Proc.devRef .tc main_v61) = y2 m c :=
  (s3_v61 (W8 m ρ c)).trans (w8_v61 m ρ c)

theorem w14_v65 : W14 m ρ c (Proc.devRef .tc main_v65) = layer3 (y2 m c) (wPad m c) (bPad m c) :=
  (W14_arr m ρ c 3).trans ((Region3.arr (V13 m ρ) c).trans (by
    rw [show V13 m ρ c (Pipeline.arrRef spec3 0) = y2 m c from w13_v61 m ρ c,
      show V13 m ρ c (Pipeline.arrRef spec3 1) = wPad m c from w13_v62 m ρ c,
      show V13 m ρ c (Pipeline.arrRef spec3 2) = bPad m c from w13_v64 m ρ c]))

/-- The kernel program's result: the first ten columns of the last dense stage's output. -/
theorem result : W15 m ρ c (Proc.devRef .tc main_v66)
    = extractStridedSlice S50000x10 ![0, 0] (layer3 (y2 m c) (wPad m c) (bPad m c)) slices_S50000x128_S50000x10_0_0 :=
  (s4_v66 (W14 m ρ c)).trans (by rw [w14_v65 m ρ c])

end Cert.KernelIdeal.Chain

end
-- ==== Proof.RefLayer0.lean ====
/-
  The host's first product x · W0 is the first dense layer's function: entry by entry the sum over the shared axis.
-/
import proofs.«106158_j59725815218350_1_alg».proof.Proof.Graph
import proofs.«106158_j59725815218350_1_alg».proof.Proof.Spec
import proofs.«106158_j59725815218350_1_alg».proof.Proof.LibDotRowsCols

noncomputable section

open scoped BigOperators

namespace Cert.Gcn.RefLayer0

open Cert.ReferenceIdeal Cert.ReferenceIdeal.Gen Idealize.ShloMosaic Idealize.ShloMosaic.TcCoe Idealize.ShloMosaic.ValueIdx
open Cert.Gcn Cert.Lib.DotRowsCols

/-- The host's [50000 × 128] · [128 × 128] product contracts the left columns with the right rows. -/
theorem rowsCols : RowsCols dot_S50000x128_S128x128_S50000x128_1_0_0_1_n_n := ⟨rfl, rfl, rfl, rfl, rfl, rfl⟩

theorem layer0_eq (x : FVec Ideal S50000x128 .f32) (w : FVec Ideal S128x128 .f32) :
    Host.dotGeneral (F := Ideal) dot_S50000x128_S128x128_S50000x128_1_0_0_1_n_n none x w = layer0 x w :=
  funext fun j => rowsCols.dotGeneral_apply none x w j

end Cert.Gcn.RefLayer0

end
-- ==== Proof.RefLayer1.lean ====
/-
  The host's second product, max(A + b, 0) · W1, is the second dense layer's function.

  On the host the 128-vector b is first laid out as a [1 × 128] row and that row is repeated over the 50000 rows, so
  the array added to A holds b's entry q at every (row, q); the array the rectifier compares with holds the extended
  real zero everywhere (a scalar constant repeated over the shape). The product contracts the left columns with the
  right rows, so its entry (r, v) is the sum over q of  max(A (r, q) + b q, 0) · W (q, v): the layer's entry, the bias
  row b' being b as a [1 × 128] array.
-/
import proofs.«106158_j59725815218350_1_alg».proof.Proof.Graph
import proofs.«106158_j59725815218350_1_alg».proof.Proof.Spec
import proofs.«106158_j59725815218350_1_alg».proof.Proof.LibDotRowsCols
import Idealize.ShloMosaic.Lib.Pipeline.Value
import Idealize.ShloMosaic.Lib.ValueIdx

noncomputable section

open scoped BigOperators

namespace Cert.Gcn.RefLayer1

open Cert.ReferenceIdeal Cert.ReferenceIdeal.Gen Idealize.ShloMosaic Idealize.ShloMosaic.TcCoe Idealize.ShloMosaic.ValueIdx
open Cert.Gcn Cert.Lib.DotRowsCols

/-- The host's [50000 × 128] · [128 × 128] product contracts the left columns with the right rows. -/
theorem rowsCols : RowsCols dot_S50000x128_S128x128_S50000x128_1_0_0_1_n_n := ⟨rfl, rfl, rfl, rfl, rfl, rfl⟩

/-- The 128-vector laid out as a row and repeated over the rows reads, at (p, q), the vector's entry q. -/
theorem bias128_apply (b : FVec Ideal S128 .f32) (p : Fin 50000) (q : Fin 128) :
    Graph.bias128 (F := Ideal) b (ix2 p q) = b (ix1 q) := by
  unfold Graph.bias128
  refine (broadcastInDim_apply ![0, 1] bcast_S1x128_S50000x128_0_1 _ (ix2 p q) (ix2 (0 : Fin 1) q) fun a => ?_).trans ?_
  · match a with
    | ⟨0, _⟩ => rfl
    | ⟨1, _⟩ => rfl
  · refine broadcastInDim_apply ![1] bcast_S128_S1x128_1 b (ix2 (0 : Fin 1) q) (ix1 q) fun a => ?_
    match a with
    | ⟨0, _⟩ => rfl

/-- The array the rectifier compares with is zero at every entry. -/
theorem zero128_apply (j : S50000x128.Idx) : Graph.zero128 (F := Ideal) j = 0 := by
  show Ideal.ofBits .f32 0x00000000#32 = 0
  exact Ideal.ofBits_zero_f32

/-- The host's second product, of the rectified biased aggregate with W1, is the second dense layer's function; the
    bias row b' is the 128-vector b laid out as a [1 × 128] array. -/
theorem layer1_eq (A : FVec Ideal S50000x128 .f32) (b : FVec Ideal S128 .f32)
    (w : FVec Ideal S128x128 .f32) (b' : Mat 1 128)
    (hb : ∀ k : Fin 128, b' (ix2 (0 : Fin 1) k) = b (ix1 k)) :
    Host.dotGeneral (F := Ideal) dot_S50000x128_S128x128_S50000x128_1_0_0_1_n_n none
        (maximumf (addf A (Graph.bias128 (F := Ideal) b)) (Graph.zero128 (F := Ideal))) w
      = layer1 0 A b' w := by
  funext j
  refine (rowsCols.dotGeneral_apply none _ w j).trans ?_
  unfold layer1 mm rect addRow
  refine Finset.sum_congr rfl fun q _ => ?_
  refine congrArg₂ (· * ·) ?_ rfl
  show max (A (ix2 (j 0) q) + Graph.bias128 (F := Ideal) b (ix2 (j 0) q)) (Graph.zero128 (F := Ideal) (ix2 (j 0) q))
      = max (A (ix2 (j 0) q) + b' (ix2 (0 : Fin 1) q)) 0
  have e1 : Graph.bias128 (F := Ideal) b (ix2 (j 0) q) = b' (ix2 (0 : Fin 1) q) :=
    (bias128_apply b (j 0) q).trans (hb q).symm
  have e2 : Graph.zero128 (F := Ideal) (ix2 (j 0) q) = 0 := zero128_apply _
  rw [e1, e2]

end Cert.Gcn.RefLayer1

end
-- ==== Proof.RefLayer2.lean ====
/-
  The host's hidden head layer max((A + b) · W + c, 0) is the third dense stage's function.

  The host lays the vector b out as a [1 × 128] row, repeats it over the 50000 rows and adds it to A; multiplies the sum
  with W (entry by entry the sum over the shared axis); adds the vector c, laid out and repeated the same way; and takes
  the maximum with an array of zeros. Entry by entry that is the layer's defining expression, the one-row arrays b', c'
  holding the vectors' entries.
-/
import proofs.«106158_j59725815218350_1_alg».proof.Proof.Graph
import proofs.«106158_j59725815218350_1_alg».proof.Proof.Spec
import proofs.«106158_j59725815218350_1_alg».proof.Proof.LibDotRowsCols
import Idealize.ShloMosaic.Lib.Pipeline.Value
import Idealize.ShloMosaic.Lib.ValueIdx

noncomputable section

open scoped BigOperators

namespace Cert.Gcn.RefLayer2

open Cert.ReferenceIdeal Cert.ReferenceIdeal.Gen Idealize.ShloMosaic Idealize.ShloMosaic.TcCoe Idealize.ShloMosaic.ValueIdx
open Cert.Gcn Cert.Lib.DotRowsCols

/-- The host's [50000 × 128] · [128 × 256] product contracts the left columns with the right rows. -/
theorem rowsCols : RowsCols dot_S50000x128_S128x256_S50000x256_1_0_0_1_n_n := ⟨rfl, rfl, rfl, rfl, rfl, rfl⟩

/-- A 128-vector laid out as a row and repeated over the rows reads, at entry (r, q), the vector's entry q: the row
    axis of the one-row array has length one and is read at 0, its column axis is the vector's only axis. -/
theorem bias128_apply (b : FVec Ideal S128 .f32) (j : S50000x128.Idx) :
    Graph.bias128 (F := Ideal) b j = b (ix1 (j 1)) := by
  unfold Graph.bias128
  refine (broadcastInDim_apply ![0, 1] bcast_S1x128_S50000x128_0_1 _ j (ix2 (0 : Fin 1) (j 1)) fun a => ?_).trans ?_
  · match a with
    | ⟨0, _⟩ => rfl
    | ⟨1, _⟩ => rfl
  · refine broadcastInDim_apply ![1] bcast_S128_S1x128_1 b (ix2 (0 : Fin 1) (j 1)) (ix1 (j 1)) fun a => ?_
    match a with
    | ⟨0, _⟩ => rfl

/-- A 256-vector laid out as a row and repeated over the rows reads, at entry (r, v), the vector's entry v. -/
theorem bias256_apply (c : FVec Ideal S256 .f32) (j : S50000x256.Idx) :
    Graph.bias256 (F := Ideal) c j = c (ix1 (j 1)) := by
  unfold Graph.bias256
  refine (broadcastInDim_apply ![0, 1] bcast_S1x256_S50000x256_0_1 _ j (ix2 (0 : Fin 1) (j 1)) fun a => ?_).trans ?_
  · match a with
    | ⟨0, _⟩ => rfl
    | ⟨1, _⟩ => rfl
  · refine broadcastInDim_apply ![1] bcast_S256_S1x256_1 c (ix2 (0 : Fin 1) (j 1)) (ix1 (j 1)) fun a => ?_
    match a with
    | ⟨0, _⟩ => rfl

/-- The array of zeros reads zero at every entry: a scalar constant repeated over all axes, its word encoding zero. -/
theorem zero256_apply (j : S50000x256.Idx) : Graph.zero256 (F := Ideal) j = 0 := by
  unfold Graph.zero256
  exact Ideal.ofBits_zero_f32

/-- The host's hidden head layer is the third dense stage's function; the bias rows b', c' are the vectors b, c laid out
    as one-row arrays. -/
theorem layer2_eq (A : FVec Ideal S50000x128 .f32) (b : FVec Ideal S128 .f32)
    (w : FVec Ideal S128x256 .f32) (c : FVec Ideal S256 .f32)
    (b' : Mat 1 128) (c' : Mat 1 256)
    (hb : ∀ k : Fin 128, b' (ix2 (0 : Fin 1) k) = b (ix1 k)) (hc : ∀ k : Fin 256, c' (ix2 (0 : Fin 1) k) = c (ix1 k)) :
    maximumf (addf (Host.dotGeneral (F := Ideal) dot_S50000x128_S128x256_S50000x256_1_0_0_1_n_n none (addf A (Graph.bias128 (F := Ideal) b)) w)
        (Graph.bias256 (F := Ideal) c)) (Graph.zero256 (F := Ideal))
      = layer2 0 A b' w c' := by
  funext j
  unfold layer2 rect addRow mm
  -- the maximum and the outer sum are taken entry by entry
  refine congrArg₂ max (congrArg₂ (· + ·) ?_ (bias256_apply c j |>.trans (hc (j 1)).symm)) (zero256_apply j)
  -- the product at an entry is the sum over the shared axis; its left operand is A plus the repeated row
  refine (rowsCols.dotGeneral_apply none _ w j).trans (Finset.sum_congr rfl fun q _ => ?_)
  exact congrArg₂ (· * ·) (congrArg₂ (· + ·) rfl ((bias128_apply b _).trans (hb q).symm)) rfl

end Cert.Gcn.RefLayer2

end
-- ==== Proof.RefLayer3.lean ====
/-
  The host's output layer h · W + b, read at an entry, is the fourth dense stage's function of any wider weights and
  bias row that agree with W and b on the first ten columns: the product's entry is the sum over the shared axis, whose
  terms only read the weights' column of that entry, and the bias vector broadcast over the rows contributes its
  entry in that column.
-/
import proofs.«106158_j59725815218350_1_alg».proof.Proof.Graph
import proofs.«106158_j59725815218350_1_alg».proof.Proof.Spec
import proofs.«106158_j59725815218350_1_alg».proof.Proof.LibDotRowsCols
import Idealize.ShloMosaic.Lib.Pipeline.Value
import Idealize.ShloMosaic.Lib.ValueIdx

noncomputable section

open scoped BigOperators

namespace Cert.Gcn.RefLayer3

open Cert.ReferenceIdeal Cert.ReferenceIdeal.Gen Idealize.ShloMosaic Idealize.ShloMosaic.TcCoe Idealize.ShloMosaic.ValueIdx
open Cert.Gcn Cert.Lib.DotRowsCols

/-- The host's [50000 × 256] · [256 × 10] product contracts the left columns with the right rows. -/
theorem rowsCols : RowsCols dot_S50000x256_S256x10_S50000x10_1_0_0_1_n_n := ⟨rfl, rfl, rfl, rfl, rfl, rfl⟩

/-- The 10-vector made a [1 × 10] row and then repeated over the 50000 rows reads, at entry (r, v), the vector's
    entry v: the row's unit axis is read at 0 and its column axis at the entry's column, and the row's column axis is
    the vector's only axis. -/
theorem bias10_apply (b : FVec Ideal S10 .f32) (j : S50000x10.Idx) :
    Graph.bias10 (F := Ideal) b j = b (ix1 (j 1)) := by
  unfold Graph.bias10
  refine (broadcastInDim_apply _ _ _ j (ix2 (0 : Fin 1) (j 1)) fun a => ?_).trans
    (broadcastInDim_apply _ _ b (ix2 (0 : Fin 1) (j 1)) (ix1 (j 1)) fun a => ?_)
  · match a with
    | ⟨0, _⟩ => rfl
    | ⟨1, _⟩ => rfl
  · match a with
    | ⟨0, _⟩ => rfl

/-- The host's output layer h · W + b at entry (r, v), v < 10, is entry (r, v) of the fourth dense stage's function of
    any [256 × 128] array w' and [1 × 128] row b' whose first ten columns are W's and b's. -/
theorem layer3_eq (H : FVec Ideal S50000x256 .f32) (w : FVec Ideal S256x10 .f32)
    (b : FVec Ideal S10 .f32) (w' : Mat 256 128) (b' : Mat 1 128)
    (hw : ∀ (q : Fin 256) (v : Fin 10), w' (ix2 q (Fin.castLE (by decide : 10 ≤ 128) v)) = w (ix2 q v))
    (hb : ∀ v : Fin 10, b' (ix2 (0 : Fin 1) (Fin.castLE (by decide : 10 ≤ 128) v)) = b (ix1 v)) (j : S50000x10.Idx) :
    addf (Host.dotGeneral (F := Ideal) dot_S50000x256_S256x10_S50000x10_1_0_0_1_n_n none H w) (Graph.bias10 (F := Ideal) b) j
      = layer3 H w' b' (ix2 (j 0) (Fin.castLE (by decide : 10 ≤ 128) (j 1))) := by
  refine (addf_apply _ _ j).trans ?_
  rw [rowsCols.dotGeneral_apply none H w j, bias10_apply]
  unfold layer3 addRow mm
  -- term by term: the weights' entry (q, v) is w' at (q, v), and the bias entry v is b' at (0, v)
  refine congrArg₂ (· + ·) (Finset.sum_congr rfl fun q _ => ?_) (hb (j 1)).symm
  exact congrArg (H (ix2 (j 0) q) * ·) (hw q (j 1)).symm

end Cert.Gcn.RefLayer3

end
-- ==== Proof.KernelOperands.lean ====
import proofs.«106158_j59725815218350_1_alg».proof.Proof.Gen.KernelIdeal
import Idealize.ShloMosaic.Lib.Pipeline.Value
import Idealize.ShloMosaic.Lib.ValueIdx
import Idealize.ShloMosaic.Lib.KernelVsHost

noncomputable section

namespace Cert.KernelIdeal.Operands

open Cert.KernelIdeal Cert.KernelIdeal.Gen Idealize.ShloMosaic Idealize.ShloMosaic.TcCoe Idealize.ShloMosaic.ValueIdx

variable {α : Type}

/-- An n-vector reshaped to a [1 × n] array: entry (0, k) and entry k have the same row-major position,
    0 · n + k = k, and a reshape keeps row-major positions. -/
theorem row_of_vector {n : Nat} (b : (⟨1, ![n]⟩ : Shape).Idx → α)
    (h : (⟨1, ![n]⟩ : Shape).ShapeCasts ⟨2, ![1, n]⟩) (k : Fin n) :
    shapeCast ⟨2, ![1, n]⟩ b h (ix2 (0 : Fin 1) k) = b (ix1 k) :=
  shapeCast_apply b h (ix2 (0 : Fin 1) k) (ix1 k) (by
    rw [Shape.rowMajor_val_two, Shape.rowMajor_val_one]
    show k.val = 0 * n + k.val
    omega)

/-- A 128-vector reshaped to a [1 × 128] array: entry (0, k) is entry k. -/
theorem row128 (b : S128.Idx → α) (k : Fin 128) :
    shapeCast S1x128 b shapeCasts_S128_S1x128 (ix2 (0 : Fin 1) k) = b (ix1 k) :=
  row_of_vector b shapeCasts_S128_S1x128 k

/-- A 256-vector reshaped to a [1 × 256] array: entry (0, k) is entry k. -/
theorem row256 (b : S256.Idx → α) (k : Fin 256) :
    shapeCast S1x256 b shapeCasts_S256_S1x256 (ix2 (0 : Fin 1) k) = b (ix1 k) :=
  row_of_vector b shapeCasts_S256_S1x256 k

/-- The [256 × 10] weights padded on the right to [256 × 128]: a column below 10 holds the weights' entry. -/
theorem pad_w {u : Shape} (x : S256x10.Idx → α) (v : u.Idx → α) (hu : 0 < u.numel) (q : Fin 256) (k : Fin 10) :
    pad S256x128 ![0, 0] ![0, 118] ![0, 0] x v pads_S256x10_S256x128_000_01180 hu (ix2 q (Fin.castLE (by decide : 10 ≤ 128) k))
      = x (ix2 q k) :=
  -- no low padding and no interior padding on either axis: the padded index (q, k) is 0 + q · 1 and 0 + k · 1
  pad_apply_of_inside ![0, 0] ![0, 118] ![0, 0] x v pads_S256x10_S256x128_000_01180 hu
    (ix2 q (Fin.castLE (by decide : 10 ≤ 128) k)) (ix2 q k) (by
      intro a
      match a with
      | ⟨0, _⟩ => show q.val = 0 + q.val * (0 + 1); omega
      | ⟨1, _⟩ => show k.val = 0 + k.val * (0 + 1); omega)

/-- The 10-vector padded to 128 and reshaped to a [1 × 128] array: entry (0, k), k below 10, is the vector's entry k. -/
theorem pad_b {u : Shape} (x : S10.Idx → α) (v : u.Idx → α) (hu : 0 < u.numel) (k : Fin 10) :
    shapeCast S1x128 (pad S128 ![0] ![118] ![0] x v pads_S10_S128_01180 hu) shapeCasts_S128_S1x128
        (ix2 (0 : Fin 1) (Fin.castLE (by decide : 10 ≤ 128) k))
      = x (ix1 k) := by
  -- the row's entry (0, k) is the padded vector's entry k ...
  refine (row128 _ _).trans ?_
  -- ... which lies inside the unpadded vector: k = 0 + k · 1
  exact pad_apply_of_inside ![0] ![118] ![0] x v pads_S10_S128_01180 hu
    (ix1 (Fin.castLE (by decide : 10 ≤ 128) k)) (ix1 k) (by
      intro a
      match a with
      | ⟨0, _⟩ => show k.val = 0 + k.val * (0 + 1); omega)

/-- The first ten columns of a [50000 × 128] array, read at an entry. -/
theorem slice_out (X : S50000x128.Idx → α) (j : S50000x10.Idx) :
    extractStridedSlice S50000x10 ![0, 0] X slices_S50000x128_S50000x10_0_0 j
      = X (ix2 (j 0) (Fin.castLE (by decide : 10 ≤ 128) (j 1))) :=
  -- the slice starts at (0, 0): its entry j is the array's entry (0 + j₀, 0 + j₁)
  extractStridedSlice_apply ![0, 0] X slices_S50000x128_S50000x10_0_0 j
    (ix2 (j 0) (Fin.castLE (by decide : 10 ≤ 128) (j 1))) (by
      intro a
      match a with
      | ⟨0, _⟩ => show (j 0).val = 0 + (j 0).val; omega
      | ⟨1, _⟩ => show (j 1).val = 0 + (j 1).val; omega)

end Cert.KernelIdeal.Operands

end
-- ==== Proof.Bridge.lean ====
/-
  The host network of the argument arrays is the kernel program's result.

  Stage by stage the host's whole-array operations are the dense layers' functions: x · W0 is the first layer; the
  product of the rectified, biased first aggregate with W1 is the second; the rectified, biased product of the biased
  second aggregate with Wm1 is the head's hidden layer; and h · Wm2 + bm2, an entry (r, v) with v < 10, is entry (r, v)
  of the last layer on the weights and biases padded with zero columns — the padding only adds columns 10 … 127,
  which the final slice drops. The graph convolutions between the stages are the same function on both sides.
-/
import proofs.«106158_j59725815218350_1_alg».proof.Proof.KChain
import proofs.«106158_j59725815218350_1_alg».proof.Proof.RefLayer0
import proofs.«106158_j59725815218350_1_alg».proof.Proof.RefLayer1
import proofs.«106158_j59725815218350_1_alg».proof.Proof.RefLayer2
import proofs.«106158_j59725815218350_1_alg».proof.Proof.RefLayer3
import proofs.«106158_j59725815218350_1_alg».proof.Proof.KernelOperands

set_option maxRecDepth 16384

noncomputable section

namespace Cert.KernelIdeal.Bridge

open Cert.KernelIdeal Cert.KernelIdeal.Gen Cert.KernelIdeal.Chain Idealize.ShloMosaic Idealize.ShloMosaic.TcCoe Idealize.ShloMosaic.ValueIdx
open Cert.Gcn

variable (m : (ℓ : Loc nD τ sig) → Buf (Elt Ideal) ℓ) (c : Dev nD)

/-- The host's second product, on the host's first hidden layer, is the second dense stage's output. -/
theorem second_eq :
    Host.dotGeneral (F := Ideal) (φ₁ := .f32) (φ₂ := .f32) Cert.ReferenceIdeal.dot_S50000x128_S128x128_S50000x128_1_0_0_1_n_n none
        (Graph.hidden (F := Ideal) (arg m c main_arg0) (arg m c main_arg1) (arg m c main_arg2) (arg m c main_arg3)) (arg m c main_arg4)
      = y1 m c := by
  unfold Graph.hidden
  rw [RefLayer0.layer0_eq (arg m c main_arg0) (arg m c main_arg2)]
  have hb : ∀ k : Fin 128, (shapeCast S1x128 (arg m c main_arg3) shapeCasts_S128_S1x128 : Mat 1 128) (ix2 (0 : Fin 1) k) = (arg m c main_arg3 : FVec Ideal S128 .f32) (ix1 k) :=
    fun k => Operands.row128 (arg m c main_arg3) k
  have h := RefLayer1.layer1_eq (agg0 m c) (arg m c main_arg3) (arg m c main_arg4)
    (shapeCast S1x128 (arg m c main_arg3) shapeCasts_S128_S1x128) hb
  exact h

/-- The host network is the first ten columns of the last dense stage on the padded head operands. -/
theorem net_eq :
    Graph.net (F := Ideal) (arg m c main_arg0) (arg m c main_arg1) (arg m c main_arg2) (arg m c main_arg3) (arg m c main_arg4)
        (arg m c main_arg5) (arg m c main_arg6) (arg m c main_arg7) (arg m c main_arg8) (arg m c main_arg9)
      = extractStridedSlice S50000x10 ![0, 0] (layer3 (y2 m c) (wPad m c) (bPad m c)) slices_S50000x128_S50000x10_0_0 := by
  funext j
  rw [Operands.slice_out]
  unfold Graph.net
  rw [second_eq m c]
  rw [RefLayer2.layer2_eq (Graph.conv (F := Ideal) (y1 m c) (arg m c main_arg1)) (arg m c main_arg5) (arg m c main_arg6) (arg m c main_arg7)
    (shapeCast S1x128 (arg m c main_arg5) shapeCasts_S128_S1x128) (shapeCast S1x256 (arg m c main_arg7) shapeCasts_S256_S1x256)
    (fun k => Operands.row128 _ k) (fun k => Operands.row256 _ k)]
  exact RefLayer3.layer3_eq (y2 m c) (arg m c main_arg8) (arg m c main_arg9) (wPad m c) (bPad m c)
    (fun q v => Operands.pad_w _ _ _ q v) (fun v => Operands.pad_b _ _ _ v) j

end Cert.KernelIdeal.Bridge

end
-- ==== Proof.lean ====
/-
  A two-layer graph convolutional network with a two-layer head, its four dense stages computed by tiled kernels
  (blocks of 5000 node rows, operands cast to a narrower float format before each product), against the same network
  written with whole-array operations on the host.

  Over the extended reals the change of float format is the identity and a product accumulated into zero is the plain
  sum over the shared axis, so each tiled stage writes, block by block, the rows of ONE whole-array function of its
  operands: x · W0; max(a + b0, 0) · W1; max((a + b1) · Wm1 + bm1, 0); h · Wm2 + bm2 on weights and biases padded with
  zero columns, of which the program keeps the first ten. The host stretches between the stages (the edge lists with
  their self loops, the degree normalisation, the gather-scale-scatter convolutions) are the same operations in both
  programs, so both results are one function of the ten arguments. No law of arithmetic beyond reading a product entry
  by entry is used: the precondition is never opened.

  The three frames: the two kernel programs' are the generated ones; the host program terminates with its arguments
  unchanged by its run as a line of operations. The idealization rewrote no operation, so `preserves` is trivial.
-/
import proofs.«106158_j59725815218350_1_alg».proof.Defs
import proofs.«106158_j59725815218350_1_alg».proof.Proof.Gen.Kernel
import proofs.«106158_j59725815218350_1_alg».proof.Proof.Gen.Kernel.Skeleton
import proofs.«106158_j59725815218350_1_alg».proof.Proof.Gen.Kernel.Launch
import proofs.«106158_j59725815218350_1_alg».proof.Proof.Gen.Kernel.Points
import proofs.«106158_j59725815218350_1_alg».proof.Proof.Gen.Kernel.Frame
import proofs.«106158_j59725815218350_1_alg».proof.Proof.Gen.KernelIdeal
import proofs.«106158_j59725815218350_1_alg».proof.Proof.Gen.KernelIdeal.Skeleton
import proofs.«106158_j59725815218350_1_alg».proof.Proof.Gen.KernelIdeal.Launch
import proofs.«106158_j59725815218350_1_alg».proof.Proof.Gen.KernelIdeal.Points
import proofs.«106158_j59725815218350_1_alg».proof.Proof.Gen.KernelIdeal.Frame
import proofs.«106158_j59725815218350_1_alg».proof.Proof.Gen.ReferenceIdeal
import proofs.«106158_j59725815218350_1_alg».proof.Proof.Gen.Pre_finite_inputs
import proofs.«106158_j59725815218350_1_alg».proof.Proof.KernelRun
import proofs.«106158_j59725815218350_1_alg».proof.Proof.RefRun
import proofs.«106158_j59725815218350_1_alg».proof.Proof.RefRead
import proofs.«106158_j59725815218350_1_alg».proof.Proof.KChain
import proofs.«106158_j59725815218350_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The host program's run with its result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The kernel program ends with its result buffer at the first ten columns of the last dense stage, the host program
    with its own at the network of its arguments; from memories that agree on the arguments these are one array. -/
theorem algebraic : Cert.algebraic_KernelIdeal_ReferenceIdeal := by
  intro m ρ m' ρ' _ hagree
  refine ⟨fun c => Cert.KernelIdeal.Gen.W15 m ρ c (Proc.devRef .tc Cert.KernelIdeal.main_v66),
    Cert.KernelIdeal.GenRun.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefRead.result m' c]
  obtain ⟨a0, a1, a2, a3, a4, a5, a6, a7, a8, a9⟩ := hagree c
  rw [a0, a1, a2, a3, a4, a5, a6, a7, a8, a9]
  exact (Cert.KernelIdeal.Bridge.net_eq m c).trans (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
